-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S100000 : Shape := ⟨1, ![100000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S_ : Shape := ⟨0, ![]⟩

class Facts : Prop where
  bcast_S_S100000x133 : S_.BroadcastsInDim S100000x133 (![] : Fin 0 → Fin S100000x133.rank)
  reducesTo_S100000x133_S_d0_1 : S100000x133.ReducesTo [0, 1] S_
  h_S_ : 0 < S_.numel
  bcast_S_S200000x147 : S_.BroadcastsInDim S200000x147 (![] : Fin 0 → Fin S200000x147.rank)
  reducesTo_S200000x147_S_d0_1 : S200000x147.ReducesTo [0, 1] S_
  bcast_S_S147x300 : S_.BroadcastsInDim S147x300 (![] : Fin 0 → Fin S147x300.rank)
  reducesTo_S147x300_S_d0_1 : S147x300.ReducesTo [0, 1] S_
  bcast_S_S300x300 : S_.BroadcastsInDim S300x300 (![] : Fin 0 → Fin S300x300.rank)
  reducesTo_S300x300_S_d0_1 : S300x300.ReducesTo [0, 1] S_
  bcast_S_S433x300 : S_.BroadcastsInDim S433x300 (![] : Fin 0 → Fin S433x300.rank)
  reducesTo_S433x300_S_d0_1 : S433x300.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg8 : FVec F S433x300 .f32) (main_arg9 : FVec F S300 .f32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S433x300 .f32 := Host.absf main_arg8
  let main_cst_6 : FVec F S_ .f32 := constant S_ .f32 0x7F800000#32
  let main_v20 : FVec F S433x300 .f32 := broadcastInDim S433x300 ![] bcast_S_S433x300 main_cst_6
  let main_v21 : IVec S433x300 1 := cmpf .olt main_v19 main_v20
  let main_c_7 : IVec S_ 1 := constantI S_ 1 1#1
  let main_v22 : IVec S_ 1 := (fun x v => Host.reduce IntOp.andi x v reducesTo_S433x300_S_d0_1 h_S_) main_v21 main_c_7
  let main_v23 : IVec S_ 1 := andi main_v18 main_v22
  let main_v24 : FVec F S300 .f32 := Host.absf main_arg9
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  main_v28

def fn {F : FTy → Type} [FloatOps F] (main_arg0 : FVec F S100000x133 .f32) (main_arg1 : FVec F S200000x147 .f32) (main_arg2 : IVec S100000x6 32) (main_arg3 : IVec S200000 32) (main_arg4 : IVec S200000 32) (main_arg5 : IVec S100000 32) (main_arg6 : FVec F S147x300 .f32) (main_arg7 : FVec F S300x300 .f32) (main_arg8 : FVec F S433x300 .f32) (main_arg9 : FVec F S300 .f32) : IVec S_ 1 :=
  let main_v0 : FVec F S100000x133 .f32 := Host.absf main_arg0
  let main_cst : FVec F S_ .f32 := constant S_ .f32 0x7F800000#32
  let main_v1 : FVec F S100000x133 .f32 := broadcastInDim S100000x133 ![] bcast_S_S100000x133 main_cst
  let main_v2 : IVec S100000x133 1 := cmpf .olt main_v0 main_v1
  let main_c : IVec S_ 1 := constantI S_ 1 1#1
  let main_v3 : IVec S_ 1 := (fun x v => Host.reduce IntOp.andi x v reducesTo_S100000x133_S_d0_1 h_S_) main_v2 main_c
  let main_v4 : FVec F S200000x147 .f32 := Host.absf main_arg1
  let main_cst_0 : FVec F S_ .f32 := constant S_ .f32 0x7F800000#32
  let main_v5 : FVec F S200000x147 .f32 := broadcastInDim S200000x147 ![] bcast_S_S200000x147 main_cst_0
  let main_v6 : IVec S200000x147 1 := cmpf .olt main_v4 main_v5
  let main_c_1 : IVec S_ 1 := constantI S_ 1 1#1
  let main_v7 : IVec S_ 1 := (fun x v => Host.reduce IntOp.andi x v reducesTo_S200000x147_S_d0_1 h_S_) main_v6 main_c_1
  let main_v8 : IVec S_ 1 := andi main_v3 main_v7
  let main_v9 : FVec F S147x300 .f32 := Host.absf main_arg6
  let main_cst_2 : FVec F S_ .f32 := constant S_ .f32 0x7F800000#32
  let main_v10 : FVec F S147x300 .f32 := broadcastInDim S147x300 ![] bcast_S_S147x300 main_cst_2
  let main_v11 : IVec S147x300 1 := cmpf .olt main_v9 main_v10
  let main_c_3 : IVec S_ 1 := constantI S_ 1 1#1
  let main_v12 : IVec S_ 1 := (fun x v => Host.reduce IntOp.andi x v reducesTo_S147x300_S_d0_1 h_S_) main_v11 main_c_3
  let main_v13 : IVec S_ 1 := andi main_v8 main_v12
  let main_v14 : FVec F S300x300 .f32 := Host.absf main_arg7
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg8 main_arg9 main_v13 main_v16
-- ==== Kernel.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S100000 : Shape := ⟨1, ![100000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S200000x300 : Shape := ⟨2, ![200000, 300]⟩
abbrev S4000x147 : Shape := ⟨2, ![4000, 147]⟩
abbrev S4000x300 : Shape := ⟨2, ![4000, 300]⟩
abbrev S_ : Shape := ⟨0, ![]⟩
abbrev S100000x6x1 : Shape := ⟨3, ![100000, 6, 1]⟩
abbrev S100000x6x300 : Shape := ⟨3, ![100000, 6, 300]⟩
abbrev S100000x300 : Shape := ⟨2, ![100000, 300]⟩
abbrev S200000x1 : Shape := ⟨2, ![200000, 1]⟩
abbrev S133x300 : Shape := ⟨2, ![133, 300]⟩
abbrev S1x300 : Shape := ⟨2, ![1, 300]⟩
abbrev S5000x133 : Shape := ⟨2, ![5000, 133]⟩
abbrev S5000x300 : Shape := ⟨2, ![5000, 300]⟩
abbrev S100000x1 : Shape := ⟨2, ![100000, 1]⟩
abbrev S4000 : Shape := ⟨1, ![4000]⟩
abbrev S4000x1 : Shape := ⟨2, ![4000, 1]⟩

abbrev nBuf : Space → Nat
  | .hbm => 105
  | .vmem => 30
  | .smem => 0
  | _ => 0

abbrev bufTy : (tb : Table) → Fin (tcTables nBuf tb) → BufTy
  | .hbm, ⟨0, _⟩ => ⟨S100000x133, .f32⟩
  | .hbm, ⟨1, _⟩ => ⟨S200000x147, .f32⟩
  | .hbm, ⟨2, _⟩ => ⟨S100000x6, .i32⟩
  | .hbm, ⟨3, _⟩ => ⟨S200000, .i32⟩
  | .hbm, ⟨4, _⟩ => ⟨S200000, .i32⟩
  | .hbm, ⟨5, _⟩ => ⟨S100000, .i32⟩
  | .hbm, ⟨6, _⟩ => ⟨S147x300, .f32⟩
  | .hbm, ⟨7, _⟩ => ⟨S300x300, .f32⟩
  | .hbm, ⟨8, _⟩ => ⟨S433x300, .f32⟩
  | .hbm, ⟨9, _⟩ => ⟨S300, .f32⟩
  | .hbm, ⟨10, _⟩ => ⟨S200000x300, .f32⟩
  | .hbm, ⟨11, _⟩ => ⟨S200000x300, .f32⟩
  | .hbm, ⟨12, _⟩ => ⟨S_, .i32⟩
  | .hbm, ⟨13, _⟩ => ⟨S100000x6, .i32⟩
  | .hbm, ⟨14, _⟩ => ⟨S100000x6, .i1⟩
  | .hbm, ⟨15, _⟩ => ⟨S_, .i32⟩
  | .hbm, ⟨16, _⟩ => ⟨S100000x6, .i32⟩
  | .hbm, ⟨17, _⟩ => ⟨S100000x6, .i32⟩
  | .hbm, ⟨18, _⟩ => ⟨S100000x6, .i32⟩
  | .hbm, ⟨19, _⟩ => ⟨S100000x6x1, .i32⟩
  | .hbm, ⟨20, _⟩ => ⟨S100000x6x300, .f32⟩
  | .hbm, ⟨21, _⟩ => ⟨S_, .f32⟩
  | .hbm, ⟨22, _⟩ => ⟨S100000x300, .f32⟩
  | .hbm, ⟨23, _⟩ => ⟨S_, .i32⟩
  | .hbm, ⟨24, _⟩ => ⟨S200000, .i32⟩
  | .hbm, ⟨25, _⟩ => ⟨S200000, .i1⟩
  | .hbm, ⟨26, _⟩ => ⟨S_, .i32⟩
  | .hbm, ⟨27, _⟩ => ⟨S200000, .i32⟩
  | .hbm, ⟨28, _⟩ => ⟨S200000, .i32⟩
  | .hbm, ⟨29, _⟩ => ⟨S200000, .i32⟩
  | .hbm, ⟨30, _⟩ => ⟨S200000x1, .i32⟩
  | .hbm, ⟨31, _⟩ => ⟨S200000x300, .f32⟩
  | .hbm, ⟨32, _⟩ => ⟨S_, .i32⟩
  | .hbm, ⟨33, _⟩ => ⟨S200000, .i32⟩
  | .hbm, ⟨34, _⟩ => ⟨S200000, .i1⟩
  | .hbm, ⟨35, _⟩ => ⟨S_, .i32⟩
  | .hbm, ⟨36, _⟩ => ⟨S200000, .i32⟩
  | .hbm, ⟨37, _⟩ => ⟨S200000, .i32⟩
  | .hbm, ⟨38, _⟩ => ⟨S200000, .i32⟩
  | .hbm, ⟨39, _⟩ => ⟨S200000x1, .i32⟩
  | .hbm, ⟨40, _⟩ => ⟨S200000x300, .f32⟩
  | .hbm, ⟨41, _⟩ => ⟨S200000x300, .f32⟩
  | .hbm, ⟨42, _⟩ => ⟨S200000x300, .f32⟩
  | .hbm, ⟨43, _⟩ => ⟨S_, .i32⟩
  | .hbm, ⟨44, _⟩ => ⟨S100000x6, .i32⟩
  | .hbm, ⟨45, _⟩ => ⟨S100000x6, .i1⟩
  | .hbm, ⟨46, _⟩ => ⟨S_, .i32⟩
  | .hbm, ⟨47, _⟩ => ⟨S100000x6, .i32⟩
  | .hbm, ⟨48, _⟩ => ⟨S100000x6, .i32⟩
  | .hbm, ⟨49, _⟩ => ⟨S100000x6, .i32⟩
  | .hbm, ⟨50, _⟩ => ⟨S100000x6x1, .i32⟩
  | .hbm, ⟨51, _⟩ => ⟨S100000x6x300, .f32⟩
  | .hbm, ⟨52, _⟩ => ⟨S_, .f32⟩
  | .hbm, ⟨53, _⟩ => ⟨S100000x300, .f32⟩
  | .hbm, ⟨54, _⟩ => ⟨S_, .i32⟩
  | .hbm, ⟨55, _⟩ => ⟨S200000, .i32⟩
  | .hbm, ⟨56, _⟩ => ⟨S200000, .i1⟩
  | .hbm, ⟨57, _⟩ => ⟨S_, .i32⟩
  | .hbm, ⟨58, _⟩ => ⟨S200000, .i32⟩
  | .hbm, ⟨59, _⟩ => ⟨S200000, .i32⟩
  | .hbm, ⟨60, _⟩ => ⟨S200000, .i32⟩
  | .hbm, ⟨61, _⟩ => ⟨S200000x1, .i32⟩
  | .hbm, ⟨62, _⟩ => ⟨S200000x300, .f32⟩
  | .hbm, ⟨63, _⟩ => ⟨S_, .i32⟩
  | .hbm, ⟨64, _⟩ => ⟨S200000, .i32⟩
  | .hbm, ⟨65, _⟩ => ⟨S200000, .i1⟩
  | .hbm, ⟨66, _⟩ => ⟨S_, .i32⟩
  | .hbm, ⟨67, _⟩ => ⟨S200000, .i32⟩
  | .hbm, ⟨68, _⟩ => ⟨S200000, .i32⟩
  | .hbm, ⟨69, _⟩ => ⟨S200000, .i32⟩
  | .hbm, ⟨70, _⟩ => ⟨S200000x1, .i32⟩
  | .hbm, ⟨71, _⟩ => ⟨S200000x300, .f32⟩
  | .hbm, ⟨72, _⟩ => ⟨S200000x300, .f32⟩
  | .hbm, ⟨73, _⟩ => ⟨S200000x300, .f32⟩
  | .hbm, ⟨74, _⟩ => ⟨S_, .i32⟩
  | .hbm, ⟨75, _⟩ => ⟨S100000x6, .i32⟩
  | .hbm, ⟨76, _⟩ => ⟨S100000x6, .i1⟩
  | .hbm, ⟨77, _⟩ => ⟨S_, .i32⟩
  | .hbm, ⟨78, _⟩ => ⟨S100000x6, .i32⟩
  | .hbm, ⟨79, _⟩ => ⟨S100000x6, .i32⟩
  | .hbm, ⟨80, _⟩ => ⟨S100000x6, .i32⟩
  | .hbm, ⟨81, _⟩ => ⟨S100000x6x1, .i32⟩
  | .hbm, ⟨82, _⟩ => ⟨S100000x6x300, .f32⟩
  | .hbm, ⟨83, _⟩ => ⟨S_, .f32⟩
  | .hbm, ⟨84, _⟩ => ⟨S100000x300, .f32⟩
  | .hbm, ⟨85, _⟩ => ⟨S133x300, .f32⟩
  | .hbm, ⟨86, _⟩ => ⟨S300x300, .f32⟩
  | .hbm, ⟨87, _⟩ => ⟨S1x300, .f32⟩
  | .hbm, ⟨88, _⟩ => ⟨S100000x300, .f32⟩
  | .hbm, ⟨89, _⟩ => ⟨S_, .f32⟩
  | .hbm, ⟨90, _⟩ => ⟨S4000x300, .f32⟩
  | .hbm, ⟨91, _⟩ => ⟨S100000x1, .i32⟩
  | .hbm, ⟨92, _⟩ => ⟨S4000x300, .f32⟩
  | .hbm, ⟨93, _⟩ => ⟨S_, .f32⟩
  | .hbm, ⟨94, _⟩ => ⟨S100000, .f32⟩
  | .hbm, ⟨95, _⟩ => ⟨S_, .f32⟩
  | .hbm, ⟨96, _⟩ => ⟨S4000, .f32⟩
  | .hbm, ⟨97, _⟩ => ⟨S100000x1, .i32⟩
  | .hbm, ⟨98, _⟩ => ⟨S4000, .f32⟩
  | .hbm, ⟨99, _⟩ => ⟨S_, .f32⟩
  | .hbm, ⟨100, _⟩ => ⟨S4000, .f32⟩
  | .hbm, ⟨101, _⟩ => ⟨S4000, .f32⟩
  | .hbm, ⟨102, _⟩ => ⟨S4000x1, .f32⟩
  | .hbm, ⟨103, _⟩ => ⟨S4000x300, .f32⟩
  | .hbm, ⟨104, _⟩ => ⟨S4000x300, .f32⟩
  | .local _ .vmem, ⟨0, _⟩ => ⟨S4000x147, .f32⟩
  | .local _ .vmem, ⟨1, _⟩ => ⟨S4000x147, .f32⟩
  | .local _ .vmem, ⟨2, _⟩ => ⟨S147x300, .f32⟩
  | .local _ .vmem, ⟨3, _⟩ => ⟨S4000x300, .f32⟩
  | .local _ .vmem, ⟨4, _⟩ => ⟨S4000x300, .f32⟩
  | .local _ .vmem, ⟨5, _⟩ => ⟨S4000x300, .f32⟩
  | .local _ .vmem, ⟨6, _⟩ => ⟨S4000x300, .f32⟩
  | .local _ .vmem, ⟨7, _⟩ => ⟨S4000x300, .f32⟩
  | .local _ .vmem, ⟨8, _⟩ => ⟨S4000x300, .f32⟩
  | .local _ .vmem, ⟨9, _⟩ => ⟨S4000x300, .f32⟩
  | .local _ .vmem, ⟨10, _⟩ => ⟨S4000x300, .f32⟩
  | .local _ .vmem, ⟨11, _⟩ => ⟨S300x300, .f32⟩
  | .local _ .vmem, ⟨12, _⟩ => ⟨S4000x300, .f32⟩
  | .local _ .vmem, ⟨13, _⟩ => ⟨S4000x300, .f32⟩
  | .local _ .vmem, ⟨14, _⟩ => ⟨S4000x300, .f32⟩
  | .local _ .vmem, ⟨15, _⟩ => ⟨S4000x300, .f32⟩
  | .local _ .vmem, ⟨16, _⟩ => ⟨S4000x300, .f32⟩
  | .local _ .vmem, ⟨17, _⟩ => ⟨S4000x300, .f32⟩
  | .local _ .vmem, ⟨18, _⟩ => ⟨S300x300, .f32⟩
  | .local _ .vmem, ⟨19, _⟩ => ⟨S4000x300, .f32⟩
  | .local _ .vmem, ⟨20, _⟩ => ⟨S4000x300, .f32⟩
  | .local _ .vmem, ⟨21, _⟩ => ⟨S5000x133, .f32⟩
  | .local _ .vmem, ⟨22, _⟩ => ⟨S5000x133, .f32⟩
  | .local _ .vmem, ⟨23, _⟩ => ⟨S5000x300, .f32⟩
  | .local _ .vmem, ⟨24, _⟩ => ⟨S5000x300, .f32⟩
  | .local _ .vmem, ⟨25, _⟩ => ⟨S133x300, .f32⟩
  | .local _ .vmem, ⟨26, _⟩ => ⟨S300x300, .f32⟩
  | .local _ .vmem, ⟨27, _⟩ => ⟨S1x300, .f32⟩
  | .local _ .vmem, ⟨28, _⟩ => ⟨S5000x300, .f32⟩
  | .local _ .vmem, ⟨29, _⟩ => ⟨S5000x300, .f32⟩
  | _, _ => ⟨S100000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_12 : Ref sig .tc := ⟨.hbm, 74, rfl⟩
abbrev main_v49 : Ref sig .tc := ⟨.hbm, 75, rfl⟩
abbrev main_v50 : Ref sig .tc := ⟨.hbm, 76, rfl⟩
abbrev main_c_13 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_14 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_15 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_16 : Ref sig .tc := ⟨.hbm, 93, rfl⟩
abbrev main_v64 : Ref sig .tc := ⟨.hbm, 94, rfl⟩
abbrev main_cst_17 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_18 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x300 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x300 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S300x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x300 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x300 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S133x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S300x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x300 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x300 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S4000x147_S4000x147_0_0 : ∀ a, (![0, 0] : Fin 2 → Nat) a + S4000x147.size a ≤ S4000x147.size a
  h_S4000x147 : 0 < S4000x147.numel
  bitsLt_bf16_f32 : FTy.bits .bf16 < FTy.bits .f32
  inb_S147x300_S147x300_0_0 : ∀ a, (![0, 0] : Fin 2 → Nat) a + S147x300.size a ≤ S147x300.size a
  h_S147x300 : 0 < S147x300.numel
  inb_S4000x300_S4000x300_0_0 : ∀ a, (![0, 0] : Fin 2 → Nat) a + S4000x300.size a ≤ S4000x300.size a
  h_S4000x300 : 0 < S4000x300.numel
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x300_S100000x300_d1 : S100000x6x300.ReducesTo [1] S100000x300
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  shapeCasts_S4000x300_S4000x300 : S4000x300.ShapeCasts S4000x300
  inb_S300x300_S300x300_0_0 : ∀ a, (![0, 0] : Fin 2 → Nat) a + S300x300.size a ≤ S300x300.size a
  h_S300x300 : 0 < S300x300.numel
  slices_S433x300_S133x300_0_0 : S433x300.Slices ![0, 0] S133x300
  slices_S433x300_S300x300_133_0 : S433x300.Slices ![133, 0] S300x300
  shapeCasts_S300_S1x300 : S300.ShapeCasts S1x300
  inb_S5000x133_S5000x133_0_0 : ∀ a, (![0, 0] : Fin 2 → Nat) a + S5000x133.size a ≤ S5000x133.size a
  h_S5000x133 : 0 < S5000x133.numel
  inb_S5000x300_S5000x300_0_0 : ∀ a, (![0, 0] : Fin 2 → Nat) a + S5000x300.size a ≤ S5000x300.size a
  h_S5000x300 : 0 < S5000x300.numel
  shapeCasts_S5000x300_S5000x300 : S5000x300.ShapeCasts S5000x300
  inb_S133x300_S133x300_0_0 : ∀ a, (![0, 0] : Fin 2 → Nat) a + S133x300.size a ≤ S133x300.size a
  h_S133x300 : 0 < S133x300.numel
  shapeCasts_S133x300_S133x300 : S133x300.ShapeCasts S133x300
  shapeCasts_S300x300_S300x300 : S300x300.ShapeCasts S300x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S5000x300 : S1x300.Broadcasts S5000x300
  bcast_S_S4000x300 : S_.BroadcastsInDim S4000x300 (![] : Fin 0 → Fin S4000x300.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x300_0_1 : S4000x1.BroadcastsInDim S4000x300 (![0, 1] : Fin 2 → Fin S4000x300.rank)
  dot_S4000x147_S147x300_S4000x300_1_0_0_1_n_n_wf : DotDims.WF S4000x147 S147x300 S4000x300 [1] [0] [0] [1] [] []
  gather_S200000x300_S100000x6x1_S100000x6x300_2_0_n_n_0_2_1300_wf : GatherDims.WF S200000x300 S100000x6x1 S100000x6x300 [2] [0] [] [0] [] 2 ![1, 300]
  gather_S200000x300_S200000x1_S200000x300_1_0_n_n_0_1_1300_wf : GatherDims.WF S200000x300 S200000x1 S200000x300 [1] [0] [] [0] [] 1 ![1, 300]
  gather_S100000x300_S200000x1_S200000x300_1_0_n_n_0_1_1300_wf : GatherDims.WF S100000x300 S200000x1 S200000x300 [1] [0] [] [0] [] 1 ![1, 300]
  dot_S4000x300_S300x300_S4000x300_1_0_0_1_n_n_wf : DotDims.WF S4000x300 S300x300 S4000x300 [1] [0] [0] [1] [] []
  dot_S5000x133_S133x300_S5000x300_1_0_0_1_n_n_wf : DotDims.WF S5000x133 S133x300 S5000x300 [1] [0] [0] [1] [] []
  dot_S5000x300_S300x300_S5000x300_1_0_0_1_n_n_wf : DotDims.WF S5000x300 S300x300 S5000x300 [1] [0] [0] [1] [] []
  scatter_S4000x300_S100000x1_S100000x300_1_0_0_1_wf : ScatterDims.WF S4000x300 S100000x1 S100000x300 [1] [0] [0] 1
  scatter_S4000_S100000x1_S100000_n_0_0_1_wf : ScatterDims.WF S4000 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x147.size a ≤ S200000x147.size a
  hwx0_0 : ∀ i : grid0.Coords, EltTy.bits .f32 = 32 ∨ (Rect.block (s := S200000x147) S4000x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x300.size a ≤ S147x300.size a
  hwx0_1 : ∀ i : grid0.Coords, EltTy.bits .f32 = 32 ∨ (Rect.block (s := S147x300) S147x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x300.size a ≤ S200000x300.size a
  hwx0_2 : ∀ i : grid0.Coords, EltTy.bits .f32 = 32 ∨ (Rect.block (s := S200000x300) S4000x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x300.size a ≤ S200000x300.size a
  hwx0_3 : ∀ i : grid0.Coords, EltTy.bits .f32 = 32 ∨ (Rect.block (s := S200000x300) S4000x300.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x300.size a ≤ S200000x300.size a
  hwx1_0 : ∀ i : grid1.Coords, EltTy.bits .f32 = 32 ∨ (Rect.block (s := S200000x300) S4000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x300.size a ≤ S200000x300.size a
  hwx1_1 : ∀ i : grid1.Coords, EltTy.bits .f32 = 32 ∨ (Rect.block (s := S200000x300) S4000x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x300.size a ≤ S300x300.size a
  hwx1_2 : ∀ i : grid1.Coords, EltTy.bits .f32 = 32 ∨ (Rect.block (s := S300x300) S300x300.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x300.size a ≤ S200000x300.size a
  hwx1_3 : ∀ i : grid1.Coords, EltTy.bits .f32 = 32 ∨ (Rect.block (s := S200000x300) S4000x300.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x300.size a ≤ S200000x300.size a
  hwx2_0 : ∀ i : grid2.Coords, EltTy.bits .f32 = 32 ∨ (Rect.block (s := S200000x300) S4000x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x300.size a ≤ S200000x300.size a
  hwx2_1 : ∀ i : grid2.Coords, EltTy.bits .f32 = 32 ∨ (Rect.block (s := S200000x300) S4000x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S300x300.size a ≤ S300x300.size a
  hwx2_2 : ∀ i : grid2.Coords, EltTy.bits .f32 = 32 ∨ (Rect.block (s := S300x300) S300x300.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x300.size a ≤ S200000x300.size a
  hwx2_3 : ∀ i : grid2.Coords, EltTy.bits .f32 = 32 ∨ (Rect.block (s := S200000x300) S4000x300.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x133.size a ≤ S100000x133.size a
  hwx3_0 : ∀ i : grid3.Coords, EltTy.bits .f32 = 32 ∨ (Rect.block (s := S100000x133) S5000x133.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x300.size a ≤ S100000x300.size a
  hwx3_1 : ∀ i : grid3.Coords, EltTy.bits .f32 = 32 ∨ (Rect.block (s := S100000x300) S5000x300.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S133x300.size a ≤ S133x300.size a
  hwx3_2 : ∀ i : grid3.Coords, EltTy.bits .f32 = 32 ∨ (Rect.block (s := S133x300) S133x300.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S300x300.size a ≤ S300x300.size a
  hwx3_3 : ∀ i : grid3.Coords, EltTy.bits .f32 = 32 ∨ (Rect.block (s := S300x300) S300x300.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x300.size a ≤ S1x300.size a
  hwx3_4 : ∀ i : grid3.Coords, EltTy.bits .f32 = 32 ∨ (Rect.block (s := S1x300) S1x300.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x300.size a ≤ S100000x300.size a
  hwx3_5 : ∀ i : grid3.Coords, EltTy.bits .f32 = 32 ∨ (Rect.block (s := S100000x300) S5000x300.size (cc3_transform_5 i) (hinb3_5 i)).WholeWords (EltTy.packing .f32)

variable [Facts₀]

def dot_S4000x147_S147x300_S4000x300_1_0_0_1_n_n : DotDims S4000x147 S147x300 S4000x300 where
  lhsContracting := [1]
  rhsContracting := [0]
  lhsNonContracting := [0]
  rhsNonContracting := [1]
  lhsBatch := []
  rhsBatch := []
  wf := dot_S4000x147_S147x300_S4000x300_1_0_0_1_n_n_wf
def gather_S200000x300_S100000x6x1_S100000x6x300_2_0_n_n_0_2_1300 : GatherDims S200000x300 S100000x6x1 S100000x6x300 where
  offsetDims := [2]
  collapsedSliceDims := [0]
  operandBatchingDims := []
  startIndicesBatchingDims := []
  startIndexMap := [0]
  indexVectorDim := 2
  sliceSizes := ![1, 300]
  wf := gather_S200000x300_S100000x6x1_S100000x6x300_2_0_n_n_0_2_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def dot_S4000x300_S300x300_S4000x300_1_0_0_1_n_n : DotDims S4000x300 S300x300 S4000x300 where
  lhsContracting := [1]
  rhsContracting := [0]
  lhsNonContracting := [0]
  rhsNonContracting := [1]
  lhsBatch := []
  rhsBatch := []
  wf := dot_S4000x300_S300x300_S4000x300_1_0_0_1_n_n_wf
def dot_S5000x133_S133x300_S5000x300_1_0_0_1_n_n : DotDims S5000x133 S133x300 S5000x300 where
  lhsContracting := [1]
  rhsContracting := [0]
  lhsNonContracting := [0]
  rhsNonContracting := [1]
  lhsBatch := []
  rhsBatch := []
  wf := dot_S5000x133_S133x300_S5000x300_1_0_0_1_n_n_wf
def dot_S5000x300_S300x300_S5000x300_1_0_0_1_n_n : DotDims S5000x300 S300x300 S5000x300 where
  lhsContracting := [1]
  rhsContracting := [0]
  lhsNonContracting := [0]
  rhsNonContracting := [1]
  lhsBatch := []
  rhsBatch := []
  wf := dot_S5000x300_S300x300_S5000x300_1_0_0_1_n_n_wf
def scatter_S4000x300_S100000x1_S100000x300_1_0_0_1 : ScatterDims S4000x300 S100000x1 S100000x300 where
  updateWindowDims := [1]
  insertedWindowDims := [0]
  scatterDimsToOperandDims := [0]
  indexVectorDim := 1
  wf := scatter_S4000x300_S100000x1_S100000x300_1_0_0_1_wf
def scatter_S4000_S100000x1_S100000_n_0_0_1 : ScatterDims S4000 S100000x1 S100000 where
  updateWindowDims := []
  insertedWindowDims := [0]
  scatterDimsToOperandDims := [0]
  indexVectorDim := 1
  wf := scatter_S4000_S100000x1_S100000_n_0_0_1_wf

abbrev win0_0 : Pipeline.Window sig grid0 :=
  Pipeline.Window.ofSpec (Memref.whole main_arg1) S4000x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S147x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4000x300.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S4000x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S4000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S4000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S300x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S4000x300.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S4000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S4000x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S300x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S4000x300.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S5000x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S5000x300.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S133x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S300x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x300.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S5000x300.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S100000 : Shape := ⟨1, ![100000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S200000x300 : Shape := ⟨2, ![200000, 300]⟩
abbrev S_ : Shape := ⟨0, ![]⟩
abbrev S100000x6x1 : Shape := ⟨3, ![100000, 6, 1]⟩
abbrev S100000x6x300 : Shape := ⟨3, ![100000, 6, 300]⟩
abbrev S100000x300 : Shape := ⟨2, ![100000, 300]⟩
abbrev S200000x1 : Shape := ⟨2, ![200000, 1]⟩
abbrev S100000x433 : Shape := ⟨2, ![100000, 433]⟩
abbrev S1x300 : Shape := ⟨2, ![1, 300]⟩
abbrev S4000x300 : Shape := ⟨2, ![4000, 300]⟩
abbrev S100000x1 : Shape := ⟨2, ![100000, 1]⟩
abbrev S4000 : Shape := ⟨1, ![4000]⟩
abbrev S4000x1 : Shape := ⟨2, ![4000, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x133, .f32⟩
  | .hbm, ⟨1, _⟩ => ⟨S200000x147, .f32⟩
  | .hbm, ⟨2, _⟩ => ⟨S100000x6, .i32⟩
  | .hbm, ⟨3, _⟩ => ⟨S200000, .i32⟩
  | .hbm, ⟨4, _⟩ => ⟨S200000, .i32⟩
  | .hbm, ⟨5, _⟩ => ⟨S100000, .i32⟩
  | .hbm, ⟨6, _⟩ => ⟨S147x300, .f32⟩
  | .hbm, ⟨7, _⟩ => ⟨S300x300, .f32⟩
  | .hbm, ⟨8, _⟩ => ⟨S433x300, .f32⟩
  | .hbm, ⟨9, _⟩ => ⟨S300, .f32⟩
  | .hbm, ⟨10, _⟩ => ⟨S200000x300, .f32⟩
  | .hbm, ⟨11, _⟩ => ⟨S_, .f32⟩
  | .hbm, ⟨12, _⟩ => ⟨S200000x300, .f32⟩
  | .hbm, ⟨13, _⟩ => ⟨S200000x300, .f32⟩
  | .hbm, ⟨14, _⟩ => ⟨S_, .i32⟩
  | .hbm, ⟨15, _⟩ => ⟨S100000x6, .i32⟩
  | .hbm, ⟨16, _⟩ => ⟨S100000x6, .i1⟩
  | .hbm, ⟨17, _⟩ => ⟨S_, .i32⟩
  | .hbm, ⟨18, _⟩ => ⟨S100000x6, .i32⟩
  | .hbm, ⟨19, _⟩ => ⟨S100000x6, .i32⟩
  | .hbm, ⟨20, _⟩ => ⟨S100000x6, .i32⟩
  | .hbm, ⟨21, _⟩ => ⟨S100000x6x1, .i32⟩
  | .hbm, ⟨22, _⟩ => ⟨S100000x6x300, .f32⟩
  | .hbm, ⟨23, _⟩ => ⟨S_, .f32⟩
  | .hbm, ⟨24, _⟩ => ⟨S100000x300, .f32⟩
  | .hbm, ⟨25, _⟩ => ⟨S_, .i32⟩
  | .hbm, ⟨26, _⟩ => ⟨S200000, .i32⟩
  | .hbm, ⟨27, _⟩ => ⟨S200000, .i1⟩
  | .hbm, ⟨28, _⟩ => ⟨S_, .i32⟩
  | .hbm, ⟨29, _⟩ => ⟨S200000, .i32⟩
  | .hbm, ⟨30, _⟩ => ⟨S200000, .i32⟩
  | .hbm, ⟨31, _⟩ => ⟨S200000, .i32⟩
  | .hbm, ⟨32, _⟩ => ⟨S200000x1, .i32⟩
  | .hbm, ⟨33, _⟩ => ⟨S200000x300, .f32⟩
  | .hbm, ⟨34, _⟩ => ⟨S_, .i32⟩
  | .hbm, ⟨35, _⟩ => ⟨S200000, .i32⟩
  | .hbm, ⟨36, _⟩ => ⟨S200000, .i1⟩
  | .hbm, ⟨37, _⟩ => ⟨S_, .i32⟩
  | .hbm, ⟨38, _⟩ => ⟨S200000, .i32⟩
  | .hbm, ⟨39, _⟩ => ⟨S200000, .i32⟩
  | .hbm, ⟨40, _⟩ => ⟨S200000, .i32⟩
  | .hbm, ⟨41, _⟩ => ⟨S200000x1, .i32⟩
  | .hbm, ⟨42, _⟩ => ⟨S200000x300, .f32⟩
  | .hbm, ⟨43, _⟩ => ⟨S200000x300, .f32⟩
  | .hbm, ⟨44, _⟩ => ⟨S200000x300, .f32⟩
  | .hbm, ⟨45, _⟩ => ⟨S200000x300, .f32⟩
  | .hbm, ⟨46, _⟩ => ⟨S_, .f32⟩
  | .hbm, ⟨47, _⟩ => ⟨S200000x300, .f32⟩
  | .hbm, ⟨48, _⟩ => ⟨S200000x300, .f32⟩
  | .hbm, ⟨49, _⟩ => ⟨S_, .i32⟩
  | .hbm, ⟨50, _⟩ => ⟨S100000x6, .i32⟩
  | .hbm, ⟨51, _⟩ => ⟨S100000x6, .i1⟩
  | .hbm, ⟨52, _⟩ => ⟨S_, .i32⟩
  | .hbm, ⟨53, _⟩ => ⟨S100000x6, .i32⟩
  | .hbm, ⟨54, _⟩ => ⟨S100000x6, .i32⟩
  | .hbm, ⟨55, _⟩ => ⟨S100000x6, .i32⟩
  | .hbm, ⟨56, _⟩ => ⟨S100000x6x1, .i32⟩
  | .hbm, ⟨57, _⟩ => ⟨S100000x6x300, .f32⟩
  | .hbm, ⟨58, _⟩ => ⟨S_, .f32⟩
  | .hbm, ⟨59, _⟩ => ⟨S100000x300, .f32⟩
  | .hbm, ⟨60, _⟩ => ⟨S_, .i32⟩
  | .hbm, ⟨61, _⟩ => ⟨S200000, .i32⟩
  | .hbm, ⟨62, _⟩ => ⟨S200000, .i1⟩
  | .hbm, ⟨63, _⟩ => ⟨S_, .i32⟩
  | .hbm, ⟨64, _⟩ => ⟨S200000, .i32⟩
  | .hbm, ⟨65, _⟩ => ⟨S200000, .i32⟩
  | .hbm, ⟨66, _⟩ => ⟨S200000, .i32⟩
  | .hbm, ⟨67, _⟩ => ⟨S200000x1, .i32⟩
  | .hbm, ⟨68, _⟩ => ⟨S200000x300, .f32⟩
  | .hbm, ⟨69, _⟩ => ⟨S_, .i32⟩
  | .hbm, ⟨70, _⟩ => ⟨S200000, .i32⟩
  | .hbm, ⟨71, _⟩ => ⟨S200000, .i1⟩
  | .hbm, ⟨72, _⟩ => ⟨S_, .i32⟩
  | .hbm, ⟨73, _⟩ => ⟨S200000, .i32⟩
  | .hbm, ⟨74, _⟩ => ⟨S200000, .i32⟩
  | .hbm, ⟨75, _⟩ => ⟨S200000, .i32⟩
  | .hbm, ⟨76, _⟩ => ⟨S200000x1, .i32⟩
  | .hbm, ⟨77, _⟩ => ⟨S200000x300, .f32⟩
  | .hbm, ⟨78, _⟩ => ⟨S200000x300, .f32⟩
  | .hbm, ⟨79, _⟩ => ⟨S200000x300, .f32⟩
  | .hbm, ⟨80, _⟩ => ⟨S200000x300, .f32⟩
  | .hbm, ⟨81, _⟩ => ⟨S_, .f32⟩
  | .hbm, ⟨82, _⟩ => ⟨S200000x300, .f32⟩
  | .hbm, ⟨83, _⟩ => ⟨S200000x300, .f32⟩
  | .hbm, ⟨84, _⟩ => ⟨S_, .i32⟩
  | .hbm, ⟨85, _⟩ => ⟨S100000x6, .i32⟩
  | .hbm, ⟨86, _⟩ => ⟨S100000x6, .i1⟩
  | .hbm, ⟨87, _⟩ => ⟨S_, .i32⟩
  | .hbm, ⟨88, _⟩ => ⟨S100000x6, .i32⟩
  | .hbm, ⟨89, _⟩ => ⟨S100000x6, .i32⟩
  | .hbm, ⟨90, _⟩ => ⟨S100000x6, .i32⟩
  | .hbm, ⟨91, _⟩ => ⟨S100000x6x1, .i32⟩
  | .hbm, ⟨92, _⟩ => ⟨S100000x6x300, .f32⟩
  | .hbm, ⟨93, _⟩ => ⟨S_, .f32⟩
  | .hbm, ⟨94, _⟩ => ⟨S100000x300, .f32⟩
  | .hbm, ⟨95, _⟩ => ⟨S100000x433, .f32⟩
  | .hbm, ⟨96, _⟩ => ⟨S100000x300, .f32⟩
  | .hbm, ⟨97, _⟩ => ⟨S1x300, .f32⟩
  | .hbm, ⟨98, _⟩ => ⟨S100000x300, .f32⟩
  | .hbm, ⟨99, _⟩ => ⟨S100000x300, .f32⟩
  | .hbm, ⟨100, _⟩ => ⟨S_, .f32⟩
  | .hbm, ⟨101, _⟩ => ⟨S100000x300, .f32⟩
  | .hbm, ⟨102, _⟩ => ⟨S100000x300, .f32⟩
  | .hbm, ⟨103, _⟩ => ⟨S_, .f32⟩
  | .hbm, ⟨104, _⟩ => ⟨S4000x300, .f32⟩
  | .hbm, ⟨105, _⟩ => ⟨S100000x1, .i32⟩
  | .hbm, ⟨106, _⟩ => ⟨S4000x300, .f32⟩
  | .hbm, ⟨107, _⟩ => ⟨S_, .f32⟩
  | .hbm, ⟨108, _⟩ => ⟨S100000, .f32⟩
  | .hbm, ⟨109, _⟩ => ⟨S_, .f32⟩
  | .hbm, ⟨110, _⟩ => ⟨S4000, .f32⟩
  | .hbm, ⟨111, _⟩ => ⟨S100000x1, .i32⟩
  | .hbm, ⟨112, _⟩ => ⟨S4000, .f32⟩
  | .hbm, ⟨113, _⟩ => ⟨S_, .f32⟩
  | .hbm, ⟨114, _⟩ => ⟨S4000, .f32⟩
  | .hbm, ⟨115, _⟩ => ⟨S4000, .f32⟩
  | .hbm, ⟨116, _⟩ => ⟨S4000x1, .f32⟩
  | .hbm, ⟨117, _⟩ => ⟨S4000x300, .f32⟩
  | .hbm, ⟨118, _⟩ => ⟨S4000x300, .f32⟩
  | _, _ => ⟨S100000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_cst : Ref sig .tc := ⟨.hbm, 46, rfl⟩
abbrev main_call1_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call2_cst : Ref sig .tc := ⟨.hbm, 81, rfl⟩
abbrev main_call2_v0 : Ref sig .tc := ⟨.hbm, 82, rfl⟩
abbrev main_v53 : Ref sig .tc := ⟨.hbm, 83, rfl⟩
abbrev main_c_12 : Ref sig .tc := ⟨.hbm, 84, rfl⟩
abbrev main_v54 : Ref sig .tc := ⟨.hbm, 85, rfl⟩
abbrev main_v55 : Ref sig .tc := ⟨.hbm, 86, rfl⟩
abbrev main_c_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call3_cst : Ref sig .tc := ⟨.hbm, 100, rfl⟩
abbrev main_call3_v0 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_16 : Ref sig .tc := ⟨.hbm, 107, rfl⟩
abbrev main_v71 : Ref sig .tc := ⟨.hbm, 108, rfl⟩
abbrev main_cst_17 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_18 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩

abbrev nD : Nat := 1
abbrev τ : Topo := Topo.v7x

variable {F : FTy → Type} [FloatOps F]

class Facts₀ : Prop where
  bcast_S_S200000x300 : S_.BroadcastsInDim S200000x300 (![] : Fin 0 → Fin S200000x300.rank)
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x300_S100000x300_d1 : S100000x6x300.ReducesTo [1] S100000x300
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  concatenates_S100000x133_S100000x300_S100000x433_d1 : Shape.Concatenates [S100000x133, S100000x300] S100000x433 1
  bcast_S300_S1x300_1 : S300.BroadcastsInDim S1x300 (![1] : Fin 1 → Fin S1x300.rank)
  bcast_S1x300_S100000x300_0_1 : S1x300.BroadcastsInDim S100000x300 (![0, 1] : Fin 2 → Fin S100000x300.rank)
  bcast_S_S100000x300 : S_.BroadcastsInDim S100000x300 (![] : Fin 0 → Fin S100000x300.rank)
  bcast_S_S4000x300 : S_.BroadcastsInDim S4000x300 (![] : Fin 0 → Fin S4000x300.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x300_0_1 : S4000x1.BroadcastsInDim S4000x300 (![0, 1] : Fin 2 → Fin S4000x300.rank)
  dot_S200000x147_S147x300_S200000x300_1_0_0_1_n_n_wf : DotDims.WF S200000x147 S147x300 S200000x300 [1] [0] [0] [1] [] []
  gather_S200000x300_S100000x6x1_S100000x6x300_2_0_n_n_0_2_1300_wf : GatherDims.WF S200000x300 S100000x6x1 S100000x6x300 [2] [0] [] [0] [] 2 ![1, 300]
  gather_S200000x300_S200000x1_S200000x300_1_0_n_n_0_1_1300_wf : GatherDims.WF S200000x300 S200000x1 S200000x300 [1] [0] [] [0] [] 1 ![1, 300]
  gather_S100000x300_S200000x1_S200000x300_1_0_n_n_0_1_1300_wf : GatherDims.WF S100000x300 S200000x1 S200000x300 [1] [0] [] [0] [] 1 ![1, 300]
  dot_S200000x300_S300x300_S200000x300_1_0_0_1_n_n_wf : DotDims.WF S200000x300 S300x300 S200000x300 [1] [0] [0] [1] [] []
  dot_S100000x433_S433x300_S100000x300_1_0_0_1_n_n_wf : DotDims.WF S100000x433 S433x300 S100000x300 [1] [0] [0] [1] [] []
  scatter_S4000x300_S100000x1_S100000x300_1_0_0_1_wf : ScatterDims.WF S4000x300 S100000x1 S100000x300 [1] [0] [0] 1
  scatter_S4000_S100000x1_S100000_n_0_0_1_wf : ScatterDims.WF S4000 S100000x1 S100000 [] [0] [0] 1

variable [Facts₀]

def dot_S200000x147_S147x300_S200000x300_1_0_0_1_n_n : DotDims S200000x147 S147x300 S200000x300 where
  lhsContracting := [1]
  rhsContracting := [0]
  lhsNonContracting := [0]
  rhsNonContracting := [1]
  lhsBatch := []
  rhsBatch := []
  wf := dot_S200000x147_S147x300_S200000x300_1_0_0_1_n_n_wf
def gather_S200000x300_S100000x6x1_S100000x6x300_2_0_n_n_0_2_1300 : GatherDims S200000x300 S100000x6x1 S100000x6x300 where
  offsetDims := [2]
  collapsedSliceDims := [0]
  operandBatchingDims := []
  startIndicesBatchingDims := []
  startIndexMap := [0]
  indexVectorDim := 2
  sliceSizes := ![1, 300]
  wf := gather_S200000x300_S100000x6x1_S100000x6x300_2_0_n_n_0_2_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def dot_S200000x300_S300x300_S200000x300_1_0_0_1_n_n : DotDims S200000x300 S300x300 S200000x300 where
  lhsContracting := [1]
  rhsContracting := [0]
  lhsNonContracting := [0]
  rhsNonContracting := [1]
  lhsBatch := []
  rhsBatch := []
  wf := dot_S200000x300_S300x300_S200000x300_1_0_0_1_n_n_wf
def dot_S100000x433_S433x300_S100000x300_1_0_0_1_n_n : DotDims S100000x433 S433x300 S100000x300 where
  lhsContracting := [1]
  rhsContracting := [0]
  lhsNonContracting := [0]
  rhsNonContracting := [1]
  lhsBatch := []
  rhsBatch := []
  wf := dot_S100000x433_S433x300_S100000x300_1_0_0_1_n_n_wf
def scatter_S4000x300_S100000x1_S100000x300_1_0_0_1 : ScatterDims S4000x300 S100000x1 S100000x300 where
  updateWindowDims := [1]
  insertedWindowDims := [0]
  scatterDimsToOperandDims := [0]
  indexVectorDim := 1
  wf := scatter_S4000x300_S100000x1_S100000x300_1_0_0_1_wf
def scatter_S4000_S100000x1_S100000_n_0_0_1 : ScatterDims S4000 S100000x1 S100000 where
  updateWindowDims := []
  insertedWindowDims := [0]
  scatterDimsToOperandDims := [0]
  indexVectorDim := 1
  wf := scatter_S4000_S100000x1_S100000_n_0_0_1_wf

class Facts : Prop extends Facts₀ where

variable [Facts]
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.LibRectify.lean ====
/-
  The rectifier beside an affine layer, entry by entry at the extended reals, as a vector unit writes it (the maximum
  with a splat of the zero word) and as host operations write it (the maximum with a rank-0 zero constant repeated
  over the shape): both are `max y 0`-by-the-zero-word at every entry.
-/
import proofs.«139420_j15530601742850_1_alg».proof.Proof.LibDense

noncomputable section
namespace Cert.Lib.Rectify
open Idealize.ShloMosaic
open Idealize.ShloMosaic.ValueIdx
open Cert.Lib.Dense

/-- The rectifier at one entry: the maximum with the f32 zero word's value. -/
def relu1 (y : EReal) : EReal :=
  FloatOps.maximumf (F := Ideal) (φ := .f32) y (Scalar.ofBits .f32 0x00000000#32)

/-- The rectifier over an array of entries. -/
def relu {S : Shape} (Y : S.Idx → EReal) : S.Idx → EReal := fun j => relu1 (Y j)

/-- The vector unit's rectifier: the maximum with a splat of the zero word. -/
theorem relu_vec {S : Shape} (Y : FVec Ideal S .f32) :
    maximumf Y (broadcast S (Scalar.ofBits .f32 0x00000000#32)) = relu Y := rfl

/-- The host's rectifier: the maximum with the rank-0 zero constant repeated over the shape. -/
theorem relu_host {S : Shape} (Y : FVec Ideal S .f32) (e : (⟨0, ![]⟩ : Shape).BroadcastsInDim S (![] : Fin 0 → Fin S.rank)) :
    maximumf Y (broadcastInDim S ![] e (constant ⟨0, ![]⟩ .f32 0x00000000#32)) = relu Y := by
  funext j
  show FloatOps.maximumf (Y j) (broadcastInDim S ![] e (constant (F := Ideal) ⟨0, ![]⟩ .f32 0x00000000#32) j) = _
  rw [splat0_apply]
  rfl

end Cert.Lib.Rectify
-- ==== Proof.Mpn.lean ====
/-
  The message-passing network entry by entry, at the extended reals.

  * `mm X W`: entry (r, c) of the product of an [M, K] matrix with a [K, N] matrix, row r of X against column c of W;
  * `relu`: the rectifier, the maximum with zero, entry by entry;
  * `upd mc inp wh`: one message update, `relu (inp + mc · wh)`;
  * `outp fa am woa wom b`: the atom layer, `relu (fa · woa + am · wom + b)`, with the weight matrix given as its top
    rows `woa` (against the atom features) and its bottom rows `wom` (against the aggregated messages) and the bias as a
    one-row matrix.

  Each of these looks only at row r of its left operands and column c of its right operands (`mm_congr`, `upd_congr`,
  `outp_congr`), so a block of rows gives the same entries as the whole array at the block's rows.
  The product of a row-wise concatenation [fa | am] with a matrix is the sum of the two partial products against the
  matrix's top and bottom rows (`mm_concat`): a finite sum split at an index, which needs only that addition on the
  extended reals is commutative and associative.
-/
import proofs.«139420_j15530601742850_1_alg».proof.Proof.LibRectify

noncomputable section
namespace Cert.Mpn
open Idealize.ShloMosaic
open Idealize.ShloMosaic.ValueIdx
open Cert.Lib.Dense Cert.Lib.Rectify
open scoped BigOperators

/-- Entry (r, c) of the matrix product: row r of `X` against column c of `W`. -/
def mm {M K N : Nat} (X : (⟨2, ![M, K]⟩ : Shape).Idx → EReal) (W : (⟨2, ![K, N]⟩ : Shape).Idx → EReal) :
    (⟨2, ![M, N]⟩ : Shape).Idx → EReal := fun j => ∑ k : Fin K, X (ix2 (j 0) k) * W (ix2 k (j 1))

/-- One message update: the rectified sum of the bond input and the combined message times the hidden weights. -/
def upd {M K N : Nat} (mc : (⟨2, ![M, K]⟩ : Shape).Idx → EReal) (inp : (⟨2, ![M, N]⟩ : Shape).Idx → EReal)
    (wh : (⟨2, ![K, N]⟩ : Shape).Idx → EReal) : (⟨2, ![M, N]⟩ : Shape).Idx → EReal :=
  relu fun j => inp j + mm mc wh j

/-- The atom layer: atom features against the top rows of the output weights, aggregated messages against the bottom
    rows, plus the bias row, rectified. -/
def outp {M Ka Kb N : Nat} (fa : (⟨2, ![M, Ka]⟩ : Shape).Idx → EReal) (am : (⟨2, ![M, Kb]⟩ : Shape).Idx → EReal)
    (woa : (⟨2, ![Ka, N]⟩ : Shape).Idx → EReal) (wom : (⟨2, ![Kb, N]⟩ : Shape).Idx → EReal)
    (b : (⟨2, ![1, N]⟩ : Shape).Idx → EReal) : (⟨2, ![M, N]⟩ : Shape).Idx → EReal :=
  relu fun j => mm fa woa j + mm am wom j + b (ix2 0 (j 1))

/-- A product entry only reads row `y 0` of the left matrix and column `y 1` of the right one. -/
theorem mm_congr {Mb M K N : Nat} (xb : (⟨2, ![Mb, K]⟩ : Shape).Idx → EReal) (X : (⟨2, ![M, K]⟩ : Shape).Idx → EReal)
    (wb W : (⟨2, ![K, N]⟩ : Shape).Idx → EReal) (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1))) :
    mm xb wb y = mm X W i :=
  Finset.sum_congr rfl fun k _ => by rw [hx k, hw k]

/-- The host's dot product of two matrices is `mm`. -/
theorem mm_of_dot (M K N : Nat) (prec : Option ContractPrecision) (sched : HostSchedule)
    (X : FVec Ideal ⟨2, ![M, K]⟩ .f32) (W : FVec Ideal ⟨2, ![K, N]⟩ .f32) :
    FloatOps.dotGeneral (DotDims.plain M K N) prec sched X W = mm X W :=
  funext fun j => plain_dot_apply M K N prec sched X W j

/-- A block product into a zero accumulator is `mm`. -/
theorem mm_of_matmul (M K N : Nat) (prec : Option ContractPrecision)
    (X : FVec Ideal ⟨2, ![M, K]⟩ .f32) (W : FVec Ideal ⟨2, ![K, N]⟩ .f32) :
    FloatOps.matmul (DotDims.plain M K N) prec X W (constant _ .f32 0x00000000#32) = mm X W :=
  funext fun j => plain_matmul_apply M K N prec X W j

end Cert.Mpn
-- ==== Proof.Stages.lean ====
/-
  The stretches of the network between its dense layers, as functions of the arrays they read, and the network whole.

  * `nbrSum msg a2b`: for every atom the sum, over its six listed bonds, of the bond messages: the rows of `msg` picked by
    the table `a2b` (a negative entry counts from the end), added along the table's second axis;
  * `combine msg a2b b2a b2revb`: for every bond, the neighbour sum of the atom it starts from less the message of its
    reverse bond;
  * `pool h a2m`: the mean of the atom vectors `h` over each molecule: the rows of `h` added into their molecule's row,
    divided by the larger of the molecule's atom count and one;
  * `wTop`, `wBot`: the output weights' first 133 rows and the 300 rows below them; `bRow`: the bias as a one-row matrix.

  These are kept as the host operations spell them (any float instance): both programs apply the very same operations
  here, so nothing in them has to be read entry by entry. `network` puts them together with the dense layers of
  `Cert.Mpn` at the extended reals: the bond input `f_bonds · W_i`, its rectification, two message updates, the atom
  layer and the molecule mean.
-/
import proofs.«139420_j15530601742850_1_alg».proof.Proof.Gen.KernelIdeal
import proofs.«139420_j15530601742850_1_alg».proof.Proof.Mpn

noncomputable section
namespace Cert.KernelIdeal.Stage
open Idealize.ShloMosaic Cert.KernelIdeal Cert.KernelIdeal.Gen

variable {F : FTy → Type} [FloatOps F]

/-- Every atom's sum of the messages of its six listed bonds. -/
def nbrSum (msg : (⟨S200000x300, .f32⟩ : BufTy).Contents (Elt F)) (a2b : (⟨S100000x6, .i32⟩ : BufTy).Contents (Elt F)) :
    (⟨S100000x300, .f32⟩ : BufTy).Contents (Elt F) :=
  Host.reduceAdd (Host.gather gather_S200000x300_S100000x6x1_S100000x6x300_2_0_n_n_0_2_1300 msg
      (broadcastInDim S100000x6x1 ![0, 1] bcast_S100000x6_S100000x6x1_0_1
        (select (cmpi .slt a2b (broadcastInDim S100000x6 ![] bcast_S_S100000x6 (constantI S_ 32 0#32)))
          (addi a2b (broadcastInDim S100000x6 ![] bcast_S_S100000x6 (constantI S_ 32 200000#32))) a2b)))
    (constant S_ .f32 0x00000000#32) reducesTo_S100000x6x300_S100000x300_d1 h_S_

/-- Every bond's combined message: the neighbour sum of its source atom less its reverse bond's message. -/
def combine (msg : (⟨S200000x300, .f32⟩ : BufTy).Contents (Elt F)) (a2b : (⟨S100000x6, .i32⟩ : BufTy).Contents (Elt F))
    (b2a : (⟨S200000, .i32⟩ : BufTy).Contents (Elt F)) (b2revb : (⟨S200000, .i32⟩ : BufTy).Contents (Elt F)) :
    (⟨S200000x300, .f32⟩ : BufTy).Contents (Elt F) :=
  subf
    (Host.gather gather_S100000x300_S200000x1_S200000x300_1_0_n_n_0_1_1300 (nbrSum msg a2b)
      (broadcastInDim S200000x1 ![0] bcast_S200000_S200000x1_0
        (select (cmpi .slt b2a (broadcastInDim S200000 ![] bcast_S_S200000 (constantI S_ 32 0#32)))
          (addi b2a (broadcastInDim S200000 ![] bcast_S_S200000 (constantI S_ 32 100000#32))) b2a)))
    (Host.gather gather_S200000x300_S200000x1_S200000x300_1_0_n_n_0_1_1300 msg
      (broadcastInDim S200000x1 ![0] bcast_S200000_S200000x1_0
        (select (cmpi .slt b2revb (broadcastInDim S200000 ![] bcast_S_S200000 (constantI S_ 32 0#32)))
          (addi b2revb (broadcastInDim S200000 ![] bcast_S_S200000 (constantI S_ 32 200000#32))) b2revb)))

/-- The mean of the atom vectors over each molecule (an empty molecule's count taken as one). -/
def pool (h : (⟨S100000x300, .f32⟩ : BufTy).Contents (Elt F)) (a2m : (⟨S100000, .i32⟩ : BufTy).Contents (Elt F)) :
    (⟨S4000x300, .f32⟩ : BufTy).Contents (Elt F) :=
  Host.divf
    (Host.scatterAdd scatter_S4000x300_S100000x1_S100000x300_1_0_0_1
      (broadcastInDim S4000x300 ![] bcast_S_S4000x300 (constant S_ .f32 0x00000000#32))
      (broadcastInDim S100000x1 ![0] bcast_S100000_S100000x1_0 a2m) h)
    (broadcastInDim S4000x300 ![0, 1] bcast_S4000x1_S4000x300_0_1
      (broadcastInDim S4000x1 ![0] bcast_S4000_S4000x1_0
        (maximumf
          (Host.scatterAdd scatter_S4000_S100000x1_S100000_n_0_0_1
            (broadcastInDim S4000 ![] bcast_S_S4000 (constant S_ .f32 0x00000000#32))
            (broadcastInDim S100000x1 ![0] bcast_S100000_S100000x1_0 a2m)
            (broadcastInDim S100000 ![] bcast_S_S100000 (constant S_ .f32 0x3F800000#32)))
          (broadcastInDim S4000 ![] bcast_S_S4000 (constant S_ .f32 0x3F800000#32)))))

/-- The output weights' first 133 rows: the part the atom features meet. -/
def wTop (w : (⟨S433x300, .f32⟩ : BufTy).Contents (Elt F)) : (⟨S133x300, .f32⟩ : BufTy).Contents (Elt F) :=
  extractStridedSlice S133x300 ![0, 0] w slices_S433x300_S133x300_0_0

/-- The output weights' rows 133 to 432: the part the aggregated messages meet. -/
def wBot (w : (⟨S433x300, .f32⟩ : BufTy).Contents (Elt F)) : (⟨S300x300, .f32⟩ : BufTy).Contents (Elt F) :=
  extractStridedSlice S300x300 ![133, 0] w slices_S433x300_S300x300_133_0

/-- The bias vector as a one-row matrix. -/
def bRow (b : (⟨S300, .f32⟩ : BufTy).Contents (Elt F)) : (⟨S1x300, .f32⟩ : BufTy).Contents (Elt F) :=
  shapeCast S1x300 b shapeCasts_S300_S1x300

/-- The whole network at the extended reals, as a function of the ten argument arrays (in the programs' order: atom
    features, bond features, the bond table of each atom, each bond's source atom, each bond's reverse bond, each
    atom's molecule, the input weights, the hidden weights, the output weights, the output bias). -/
def network (a0 : (⟨S100000x133, .f32⟩ : BufTy).Contents (Elt Ideal)) (a1 : (⟨S200000x147, .f32⟩ : BufTy).Contents (Elt Ideal))
    (a2 : (⟨S100000x6, .i32⟩ : BufTy).Contents (Elt Ideal)) (a3 : (⟨S200000, .i32⟩ : BufTy).Contents (Elt Ideal))
    (a4 : (⟨S200000, .i32⟩ : BufTy).Contents (Elt Ideal)) (a5 : (⟨S100000, .i32⟩ : BufTy).Contents (Elt Ideal))
    (a6 : (⟨S147x300, .f32⟩ : BufTy).Contents (Elt Ideal)) (a7 : (⟨S300x300, .f32⟩ : BufTy).Contents (Elt Ideal))
    (a8 : (⟨S433x300, .f32⟩ : BufTy).Contents (Elt Ideal)) (a9 : (⟨S300, .f32⟩ : BufTy).Contents (Elt Ideal)) :
    (⟨S4000x300, .f32⟩ : BufTy).Contents (Elt Ideal) :=
  let inp : (⟨S200000x300, .f32⟩ : BufTy).Contents (Elt Ideal) := Cert.Mpn.mm (M := 200000) (K := 147) (N := 300) a1 a6
  let m0 : (⟨S200000x300, .f32⟩ : BufTy).Contents (Elt Ideal) := Cert.Lib.Rectify.relu inp
  let m1 : (⟨S200000x300, .f32⟩ : BufTy).Contents (Elt Ideal) :=
    Cert.Mpn.upd (M := 200000) (K := 300) (N := 300) (combine (F := Ideal) m0 a2 a3 a4) inp a7
  let m2 : (⟨S200000x300, .f32⟩ : BufTy).Contents (Elt Ideal) :=
    Cert.Mpn.upd (M := 200000) (K := 300) (N := 300) (combine (F := Ideal) m1 a2 a3 a4) inp a7
  pool (F := Ideal)
    (Cert.Mpn.outp (M := 100000) (Ka := 133) (Kb := 300) (N := 300) a0 (nbrSum (F := Ideal) m2 a2) (wTop (F := Ideal) a8) (wBot (F := Ideal) a8) (bRow (F := Ideal) a9))
    a5

end Cert.KernelIdeal.Stage
-- ==== Proof.Region0.lean ====
/-
  Region 0, the bond-input layer: each grid point multiplies a block of 4000 rows of the bond features by the whole
  input weight matrix, writes the product to one result array and its rectifier to a second. Entry (r, c) of a
  block product reads row r of the block and column c of the weights, the block of point t is rows 4000 t … 4000 t + 3999
  of the array, and the 50 row blocks cover all 200000 rows; so after the region the first result array holds the
  product of the whole feature matrix with the weights, entry by entry, and the second its rectifier.
-/
import proofs.«139420_j15530601742850_1_alg».proof.Proof.Gen.KernelIdeal.Frame
import proofs.«139420_j15530601742850_1_alg».proof.Proof.Mpn
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Region0

open Cert.KernelIdeal Cert.KernelIdeal.Gen

/-- The stores and loads of the body sit at offset zero of their buffers. -/
theorem off_zero : (![0, 0] : Fin 2 → Nat) = fun _ => 0 := funext fun a => by fin_cases a <;> rfl

/-- The block product of a point: the product of the feature block with the weights, entry by entry. -/
theorem pay_inp (x : Vec Ideal S4000x147 .f32) (w : Vec Ideal S147x300 .f32) :
    k0_pay1 (F := Ideal) x w = Cert.Mpn.mm (M := 4000) (K := 147) (N := 300) x w := by
  unfold k0_pay1
  exact Cert.Mpn.mm_of_matmul 4000 147 300 none x w

/-- The second stored value of a point: the rectifier of the block product. -/
theorem pay_msg (x : Vec Ideal S4000x147 .f32) (w : Vec Ideal S147x300 .f32) :
    k0_pay2 (F := Ideal) x w = Cert.Lib.Rectify.relu (Cert.Mpn.mm (M := 4000) (K := 147) (N := 300) x w) := by
  unfold k0_pay2
  exact (Cert.Lib.Rectify.relu_vec (k0_pay1 (F := Ideal) x w)).trans (congrArg Cert.Lib.Rectify.relu (pay_inp x w))

/-- The printed index maps over the grid: the row blocks of the features and of both results move with the point,
    the weights sit at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

-- the buffer contents the region is entered with
variable (V : (c : Dev nD) → (b : Ref sig .tc) → Buf (Elt Ideal) ((c : Thread nD τ).loc b))

/-- The feature block of point t is rows 4000 t … 4000 t + 3999 of the feature array. -/
theorem blk_bonds (c : Dev nD) (t : Fin cfg0.N) (y : S4000x147.Idx) (i : S200000x147.Idx)
    (h0 : (i 0).val = 4000 * t.val + (y 0).val) (h1 : (i 1).val = (y 1).val) :
    (iblk0 (F := Ideal) V c 0 t : Vec Ideal S4000x147 .f32) y = (V c main_arg1 : S200000x147.Idx → EReal) i := by
  obtain ⟨e0, e1, -⟩ := idx_facts t
  unfold iblk0
  rw [View.read_apply]
  show V c main_arg1 _ = V c main_arg1 _
  congr 1
  funext a
  apply Fin.ext
  match a with
  | ⟨0, _⟩ => show win0_0.index t 0 * 4000 + 1 * (y 0).val = (i 0).val; rw [e0, h0]; omega
  | ⟨1, _⟩ => show win0_0.index t 1 * 147 + 1 * (y 1).val = (i 1).val; rw [e1, h1]; omega

/-- The weight block of every point is the whole weight array. -/
theorem blk_weights (c : Dev nD) (t : Fin cfg0.N) (y : S147x300.Idx) (i : S147x300.Idx)
    (h0 : (i 0).val = (y 0).val) (h1 : (i 1).val = (y 1).val) :
    (iblk0 (F := Ideal) V c 1 t : Vec Ideal S147x300 .f32) y = (V c main_arg6 : S147x300.Idx → EReal) i := by
  obtain ⟨-, -, e0, e1, -⟩ := idx_facts t
  unfold iblk0
  rw [View.read_apply]
  show V c main_arg6 _ = V c main_arg6 _
  congr 1
  funext a
  apply Fin.ext
  match a with
  | ⟨0, _⟩ => show win0_1.index t 0 * 147 + 1 * (y 0).val = (i 0).val; rw [e0, h0]; omega
  | ⟨1, _⟩ => show win0_1.index t 1 * 300 + 1 * (y 1).val = (i 1).val; rw [e1, h1]; omega

/-- Entry y of the block product of point t is entry (4000 t + y 0, y 1) of the whole product: a product entry reads
    one row of the left matrix and one column of the right one. -/
theorem blk_entry (c : Dev nD) (t : Fin cfg0.N) (y : S4000x300.Idx) (i : S200000x300.Idx)
    (h0 : (i 0).val = 4000 * t.val + (y 0).val) (h1 : (i 1).val = (y 1).val) :
    Cert.Mpn.mm (M := 4000) (K := 147) (N := 300) (iblk0 (F := Ideal) V c 0 t) (iblk0 (F := Ideal) V c 1 t) y
      = Cert.Mpn.mm (M := 200000) (K := 147) (N := 300) (V c main_arg1) (V c main_arg6) i :=
  Cert.Mpn.mm_congr (Mb := 4000) (M := 200000) (K := 147) (N := 300)
    (iblk0 (F := Ideal) V c 0 t) (V c main_arg1) (iblk0 (F := Ideal) V c 1 t) (V c main_arg6) y i
    (fun k => blk_bonds V c t (ix2 (y 0) k) (ix2 (i 0) k) h0 rfl)
    (fun k => blk_weights V c t (ix2 k (y 1)) (ix2 k (i 1)) rfl h1)

/-! ## The first result array: the product -/

/-- What point t writes back to the first result array is its block of the whole product. -/
theorem flushed_inp (c : Dev nD) (t : Fin cfg0.N) :
    (dat0 (F := Ideal) V c).flushed 2 t
      = ((cfg0.win 2).blk t).view.read (Elt Ideal)
          (Cert.Mpn.mm (M := 200000) (K := 147) (N := 300) (V c main_arg1) (V c main_arg6)) := by
  show (cfg0.win 2).cut (grid0.coords t) ((dat0 (F := Ideal) V c).after 2 t) = _
  rw [after0_2]
  unfold out0_2
  rw [View.canon_unit_zero off_zero]
  simp only [View.ld_unit_zero (S := S4000x147) off_zero, View.ld_unit_zero (S := S147x300) off_zero]
  obtain ⟨-, -, -, -, e0, e1, -⟩ := idx_facts t
  funext y
  show k0_pay1 (F := Ideal) (iblk0 (F := Ideal) V c 0 t) (iblk0 (F := Ideal) V c 1 t) y
      = Cert.Mpn.mm (M := 200000) (K := 147) (N := 300) (V c main_arg1) (V c main_arg6) (((cfg0.win 2).blk t).view.emb y)
  refine (congrFun (pay_inp (iblk0 (F := Ideal) V c 0 t) (iblk0 (F := Ideal) V c 1 t)) y).trans ?_
  refine blk_entry V c t y (((cfg0.win 2).blk t).view.emb y) ?_ ?_
  · show win0_2.index t 0 * 4000 + 1 * (y 0).val = 4000 * t.val + (y 0).val
    rw [e0]; omega
  · show win0_2.index t 1 * 300 + 1 * (y 1).val = (y 1).val
    rw [e1]; omega

/-- An index of the first result array is in point t's block iff each coordinate is in the block's range on its axis. -/
theorem mem_blk_inp (t : Fin cfg0.N) (i : S200000x300.Idx) :
    i ∈ ((cfg0.win 2).blk t).view.set
      ↔ ∀ a : Fin 2, win0_2.index t a * S4000x300.size a ≤ (i a).val
          ∧ (i a).val < win0_2.index t a * S4000x300.size a + S4000x300.size a := by
  show i ∈ ((View.whole main_v0_0).slice (win0_2.rect t)).set ↔ _
  rw [View.set_slice_whole, Rect.mem_set_unit]
  exact Iff.rfl

/-- Row r of the first result array is in the block of point r / 4000, which writes back. -/
theorem cover_inp (i : S200000x300.Idx) :
    ∃ t : Fin cfg0.N, (cfg0.win 2).flush t = true ∧ i ∈ ((cfg0.win 2).blk t).view.set := by
  have hi0 : (i 0).val < 200000 := (i 0).isLt
  have hi1 : (i 1).val < 300 := (i 1).isLt
  have ht : (i 0).val / 4000 < cfg0.N := by rw [show cfg0.N = 50 from N_0]; omega
  obtain ⟨-, -, -, -, e0, e1, -⟩ := idx_facts ⟨(i 0).val / 4000, ht⟩
  have e0' : win0_2.index ⟨(i 0).val / 4000, ht⟩ 0 = (i 0).val / 4000 := e0
  refine ⟨⟨(i 0).val / 4000, ht⟩, flush0_2 _, ?_⟩
  rw [mem_blk_inp]
  intro a
  match a with
  | ⟨0, _⟩ =>
    show win0_2.index ⟨(i 0).val / 4000, ht⟩ 0 * 4000 ≤ (i 0).val
      ∧ (i 0).val < win0_2.index ⟨(i 0).val / 4000, ht⟩ 0 * 4000 + 4000
    rw [e0']; omega
  | ⟨1, _⟩ =>
    show win0_2.index ⟨(i 0).val / 4000, ht⟩ 1 * 300 ≤ (i 1).val
      ∧ (i 1).val < win0_2.index ⟨(i 0).val / 4000, ht⟩ 1 * 300 + 300
    rw [e1]; omega

/-- After the region the first result array holds the product of the feature matrix with the input weights. -/
theorem final_inp (c : Dev nD) :
    (dat0 (F := Ideal) V c).arrAt 2 cfg0.N
      = Cert.Mpn.mm (M := 200000) (K := 147) (N := 300) (V c main_arg1) (V c main_arg6) :=
  (dat0 (F := Ideal) V c).arrAt_eq_of_cover 2
    (Cert.Mpn.mm (M := 200000) (K := 147) (N := 300) (V c main_arg1) (V c main_arg6))
    (fun t _ => flushed_inp V c t) cover_inp

/-! ## The second result array: the rectified product -/

/-- What point t writes back to the second result array is its block of the rectified whole product. -/
theorem flushed_msg (c : Dev nD) (t : Fin cfg0.N) :
    (dat0 (F := Ideal) V c).flushed 3 t
      = ((cfg0.win 3).blk t).view.read (Elt Ideal)
          (Cert.Lib.Rectify.relu (Cert.Mpn.mm (M := 200000) (K := 147) (N := 300) (V c main_arg1) (V c main_arg6))) := by
  show (cfg0.win 3).cut (grid0.coords t) ((dat0 (F := Ideal) V c).after 3 t) = _
  rw [after0_3]
  unfold out0_3
  rw [View.canon_unit_zero off_zero]
  simp only [View.ld_unit_zero (S := S4000x147) off_zero, View.ld_unit_zero (S := S147x300) off_zero]
  obtain ⟨-, -, -, -, -, -, e0, e1⟩ := idx_facts t
  funext y
  show k0_pay2 (F := Ideal) (iblk0 (F := Ideal) V c 0 t) (iblk0 (F := Ideal) V c 1 t) y
      = Cert.Lib.Rectify.relu1 (Cert.Mpn.mm (M := 200000) (K := 147) (N := 300) (V c main_arg1) (V c main_arg6)
          (((cfg0.win 3).blk t).view.emb y))
  refine (congrFun (pay_msg (iblk0 (F := Ideal) V c 0 t) (iblk0 (F := Ideal) V c 1 t)) y).trans ?_
  refine congrArg Cert.Lib.Rectify.relu1 (blk_entry V c t y (((cfg0.win 3).blk t).view.emb y) ?_ ?_)
  · show win0_3.index t 0 * 4000 + 1 * (y 0).val = 4000 * t.val + (y 0).val
    rw [e0]; omega
  · show win0_3.index t 1 * 300 + 1 * (y 1).val = (y 1).val
    rw [e1]; omega

/-- An index of the second result array is in point t's block iff each coordinate is in the block's range on its axis. -/
theorem mem_blk_msg (t : Fin cfg0.N) (i : S200000x300.Idx) :
    i ∈ ((cfg0.win 3).blk t).view.set
      ↔ ∀ a : Fin 2, win0_3.index t a * S4000x300.size a ≤ (i a).val
          ∧ (i a).val < win0_3.index t a * S4000x300.size a + S4000x300.size a := by
  show i ∈ ((View.whole main_v0_1).slice (win0_3.rect t)).set ↔ _
  rw [View.set_slice_whole, Rect.mem_set_unit]
  exact Iff.rfl

/-- Row r of the second result array is in the block of point r / 4000, which writes back. -/
theorem cover_msg (i : S200000x300.Idx) :
    ∃ t : Fin cfg0.N, (cfg0.win 3).flush t = true ∧ i ∈ ((cfg0.win 3).blk t).view.set := by
  have hi0 : (i 0).val < 200000 := (i 0).isLt
  have hi1 : (i 1).val < 300 := (i 1).isLt
  have ht : (i 0).val / 4000 < cfg0.N := by rw [show cfg0.N = 50 from N_0]; omega
  obtain ⟨-, -, -, -, -, -, e0, e1⟩ := idx_facts ⟨(i 0).val / 4000, ht⟩
  have e0' : win0_3.index ⟨(i 0).val / 4000, ht⟩ 0 = (i 0).val / 4000 := e0
  refine ⟨⟨(i 0).val / 4000, ht⟩, flush0_3 _, ?_⟩
  rw [mem_blk_msg]
  intro a
  match a with
  | ⟨0, _⟩ =>
    show win0_3.index ⟨(i 0).val / 4000, ht⟩ 0 * 4000 ≤ (i 0).val
      ∧ (i 0).val < win0_3.index ⟨(i 0).val / 4000, ht⟩ 0 * 4000 + 4000
    rw [e0']; omega
  | ⟨1, _⟩ =>
    show win0_3.index ⟨(i 0).val / 4000, ht⟩ 1 * 300 ≤ (i 1).val
      ∧ (i 1).val < win0_3.index ⟨(i 0).val / 4000, ht⟩ 1 * 300 + 300
    rw [e1]; omega

/-- After the region the second result array holds the rectified product. -/
theorem final_msg (c : Dev nD) :
    (dat0 (F := Ideal) V c).arrAt 3 cfg0.N
      = Cert.Lib.Rectify.relu (Cert.Mpn.mm (M := 200000) (K := 147) (N := 300) (V c main_arg1) (V c main_arg6)) :=
  (dat0 (F := Ideal) V c).arrAt_eq_of_cover 3
    (Cert.Lib.Rectify.relu (Cert.Mpn.mm (M := 200000) (K := 147) (N := 300) (V c main_arg1) (V c main_arg6)))
    (fun t _ => flushed_msg V c t) cover_msg

end Cert.KernelIdeal.Region0

end
-- ==== Proof.Region1.lean ====
/-
  A message update, from blocks to the array. The region walks 50 row blocks of 4000 rows; at point t the body reads
  rows 4000 t … 4000 t + 3999 of the combined message and of the bond input, and the whole hidden weight matrix, and
  writes the rectified sum `relu (inp + mc · W_h)` of those blocks to the same rows of the output. An entry (r, c) of
  a message update reads only row r of the message matrix, the bond input's entry (r, c) and column c of the weights,
  so each block written back is a block of ONE function of the three whole arrays; the 50 blocks tile the 200000
  rows (row r lies in block r / 4000), hence the output array ends holding the message update of the three arrays as
  the region finds them.
-/
import proofs.«139420_j15530601742850_1_alg».proof.Proof.Gen.KernelIdeal.Frame
import proofs.«139420_j15530601742850_1_alg».proof.Proof.Mpn
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Region1

open Cert.KernelIdeal Cert.KernelIdeal.Gen

-- the buffer contents the region is entered with
variable (V : (c : Dev nD) → (b : Ref sig .tc) → Buf (Elt Ideal) ((c : Thread nD τ).loc b))

/-- The block product's printed dimension record is the plain row-by-column product of a [4000, 300] block with a
    [300, 300] matrix. -/
theorem dot_is_plain : dot_S4000x300_S300x300_S4000x300_1_0_0_1_n_n = DotDims.plain 4000 300 300 := rfl

/-- The body's payload on a block: the rectified sum of the bond-input block and the message block times the
    hidden weights (at the extended reals the narrowing of the operands is the identity). -/
theorem pay_upd (x p : Vec Ideal S4000x300 .f32) (w : Vec Ideal S300x300 .f32) :
    k1_pay1 (F := Ideal) x w p = Cert.Mpn.upd (M := 4000) (K := 300) (N := 300) x p w := by
  unfold k1_pay1
  dsimp only
  rw [shapeCast_self, shapeCast_self]
  show Cert.Lib.Rectify.relu (fun j => p j + FloatOps.matmul (F := Ideal) (φ₁ := .f32) (φ₂ := .f32) (DotDims.plain 4000 300 300) none x w (constant (F := Ideal) _ .f32 0x00000000#32) j) = _
  rw [Cert.Mpn.mm_of_matmul]
  rfl

/-- An entry of a message update only reads row `y 0` of the message matrix, the bond input's entry at `y`, and
    column `y 1` of the weights: a block of rows gives the whole array's entries at the block's rows. -/
theorem upd_rows {Mb M K N : Nat} (mb : (⟨2, ![Mb, K]⟩ : Shape).Idx → EReal) (mc : (⟨2, ![M, K]⟩ : Shape).Idx → EReal)
    (ib : (⟨2, ![Mb, N]⟩ : Shape).Idx → EReal) (inp : (⟨2, ![M, N]⟩ : Shape).Idx → EReal)
    (wb W : (⟨2, ![K, N]⟩ : Shape).Idx → EReal) (y : (⟨2, ![Mb, N]⟩ : Shape).Idx) (i : (⟨2, ![M, N]⟩ : Shape).Idx)
    (hm : ∀ k : Fin K, mb (ix2 (y 0) k) = mc (ix2 (i 0) k)) (hi : ib y = inp i)
    (hw : ∀ k : Fin K, wb (ix2 k (y 1)) = W (ix2 k (i 1))) :
    Cert.Mpn.upd mb ib wb y = Cert.Mpn.upd mc inp W i := by
  show Cert.Lib.Rectify.relu1 (ib y + Cert.Mpn.mm mb wb y) = Cert.Lib.Rectify.relu1 (inp i + Cert.Mpn.mm mc W i)
  rw [hi, Cert.Mpn.mm_congr mb mc wb W y i hm hw]

theorem zero_off : (![0, 0] : Fin 2 → Nat) = fun _ => 0 := funext fun a => by fin_cases a <;> rfl

/-- The printed index maps, decided over the grid: the three row-block windows sit at block (t, 0) at point t, the
    weight window at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The message block at point t is rows 4000 t … 4000 t + 3999 of the message array. -/
theorem msg_blk (c : Dev nD) (t : Fin cfg1.N) (y : S4000x300.Idx) (i : S200000x300.Idx)
    (h0 : (i 0).val = t.val * 4000 + (y 0).val) (h1 : (i 1).val = (y 1).val) :
    iblk1 (F := Ideal) V c 0 t y = V c main_v23 i := by
  obtain ⟨e00, e01, -, -, -, -, -, -⟩ := idx_facts t
  show V c main_v23 (((cfg1.win 0).blk t).view.emb y) = V c main_v23 i
  refine congrArg (V c main_v23) ?_
  funext a; apply Fin.ext
  match a with
  | ⟨0, _⟩ => show win1_0.index t (0 : Fin 2) * 4000 + 1 * (y 0).val = (i 0).val; omega
  | ⟨1, _⟩ => show win1_0.index t (1 : Fin 2) * 300 + 1 * (y 1).val = (i 1).val; omega

/-- The bond-input block at point t is the same rows of the bond-input array. -/
theorem inp_blk (c : Dev nD) (t : Fin cfg1.N) (y : S4000x300.Idx) (i : S200000x300.Idx)
    (h0 : (i 0).val = t.val * 4000 + (y 0).val) (h1 : (i 1).val = (y 1).val) :
    iblk1 (F := Ideal) V c 1 t y = V c main_v0_0 i := by
  obtain ⟨-, -, e10, e11, -, -, -, -⟩ := idx_facts t
  show V c main_v0_0 (((cfg1.win 1).blk t).view.emb y) = V c main_v0_0 i
  refine congrArg (V c main_v0_0) ?_
  funext a; apply Fin.ext
  match a with
  | ⟨0, _⟩ => show win1_1.index t (0 : Fin 2) * 4000 + 1 * (y 0).val = (i 0).val; omega
  | ⟨1, _⟩ => show win1_1.index t (1 : Fin 2) * 300 + 1 * (y 1).val = (i 1).val; omega

/-- The weight block at every point is the whole weight matrix. -/
theorem wgt_blk (c : Dev nD) (t : Fin cfg1.N) (y : S300x300.Idx) (i : S300x300.Idx)
    (h0 : (i 0).val = (y 0).val) (h1 : (i 1).val = (y 1).val) :
    iblk1 (F := Ideal) V c 2 t y = V c main_arg7 i := by
  obtain ⟨-, -, -, -, e20, e21, -, -⟩ := idx_facts t
  show V c main_arg7 (((cfg1.win 2).blk t).view.emb y) = V c main_arg7 i
  refine congrArg (V c main_arg7) ?_
  funext a; apply Fin.ext
  match a with
  | ⟨0, _⟩ => show win1_2.index t (0 : Fin 2) * 300 + 1 * (y 0).val = (i 0).val; omega
  | ⟨1, _⟩ => show win1_2.index t (1 : Fin 2) * 300 + 1 * (y 1).val = (i 1).val; omega

/-- Where the output block's entry y sits in the output array at point t: row 4000 t + y 0, column y 1. -/
theorem out_emb (t : Fin cfg1.N) (y : S4000x300.Idx) :
    ((((cfg1.win 3).blk t).view.emb y) 0).val = t.val * 4000 + (y 0).val
    ∧ ((((cfg1.win 3).blk t).view.emb y) 1).val = (y 1).val := by
  obtain ⟨-, -, -, -, -, -, e30, e31⟩ := idx_facts t
  constructor
  · show win1_3.index t (0 : Fin 2) * 4000 + 1 * (y 0).val = _; omega
  · show win1_3.index t (1 : Fin 2) * 300 + 1 * (y 1).val = _; omega

/-- WHAT POINT t WRITES BACK is block t of the message update of the three arrays as the region finds them. -/
theorem flushed_upd (c : Dev nD) (t : Fin cfg1.N) :
    (dat1 (F := Ideal) V c).flushed 3 t = ((cfg1.win 3).blk t).view.read (Elt Ideal)
      (Cert.Mpn.upd (M := 200000) (K := 300) (N := 300) (V c main_v23) (V c main_v0_0) (V c main_arg7)) := by
  show (cfg1.win 3).cut (grid1.coords t) ((dat1 (F := Ideal) V c).after 3 t) = _
  rw [after1_3]
  unfold out1_3
  rw [View.canon_unit_zero zero_off]
  simp only [View.ld_unit_zero (S := S4000x300) zero_off, View.ld_unit_zero (S := S300x300) zero_off]
  refine (pay_upd (iblk1 (F := Ideal) V c 0 t) (iblk1 (F := Ideal) V c 1 t) (iblk1 (F := Ideal) V c 2 t)).trans ?_
  funext y
  rw [View.read_apply]
  obtain ⟨o0, o1⟩ := out_emb t y
  refine upd_rows (iblk1 (F := Ideal) V c 0 t) (V c main_v23) (iblk1 (F := Ideal) V c 1 t) (V c main_v0_0)
    (iblk1 (F := Ideal) V c 2 t) (V c main_arg7) y (((cfg1.win 3).blk t).view.emb y) ?_ ?_ ?_
  · intro k
    exact msg_blk V c t (ix2 (y 0) k) (ix2 ((((cfg1.win 3).blk t).view.emb y) 0) k) o0 rfl
  · exact inp_blk V c t y (((cfg1.win 3).blk t).view.emb y) o0 o1
  · intro k
    exact wgt_blk V c t (ix2 k (y 1)) (ix2 k ((((cfg1.win 3).blk t).view.emb y) 1)) rfl o1

/-- An index of the output array is in point t's block iff each coordinate is in the block's range on its axis. -/
theorem mem_blk (t : Fin cfg1.N) (i : S200000x300.Idx) :
    i ∈ ((cfg1.win 3).blk t).view.set ↔ ∀ a : Fin 2, win1_3.index t a * S4000x300.size a ≤ (i a).val ∧ (i a).val < win1_3.index t a * S4000x300.size a + S4000x300.size a := by
  show i ∈ ((View.whole main_v24).slice (win1_3.rect t)).set ↔ _
  rw [View.set_slice_whole, Rect.mem_set_unit]
  exact Iff.rfl

/-- Every row r of the output array is in the block of point r / 4000. -/
theorem cover (i : S200000x300.Idx) :
    ∃ t : Fin cfg1.N, (cfg1.win 3).flush t = true ∧ i ∈ ((cfg1.win 3).blk t).view.set := by
  have hi0 : (i 0).val < 200000 := (i 0).isLt
  have hi1 : (i 1).val < 300 := (i 1).isLt
  have hN : cfg1.N = 50 := N_1
  have ht : (i 0).val / 4000 < cfg1.N := by rw [hN]; omega
  obtain ⟨-, -, -, -, -, -, e30, e31⟩ := idx_facts ⟨(i 0).val / 4000, ht⟩
  have q0 : win1_3.index ⟨(i 0).val / 4000, ht⟩ (0 : Fin 2) = (i 0).val / 4000 := e30
  refine ⟨⟨(i 0).val / 4000, ht⟩, flush1_3 _, ?_⟩
  rw [mem_blk]
  intro a
  match a with
  | ⟨0, _⟩ => show win1_3.index ⟨(i 0).val / 4000, ht⟩ (0 : Fin 2) * 4000 ≤ (i 0).val ∧ (i 0).val < win1_3.index ⟨(i 0).val / 4000, ht⟩ (0 : Fin 2) * 4000 + 4000; omega
  | ⟨1, _⟩ => show win1_3.index ⟨(i 0).val / 4000, ht⟩ (1 : Fin 2) * 300 ≤ (i 1).val ∧ (i 1).val < win1_3.index ⟨(i 0).val / 4000, ht⟩ (1 : Fin 2) * 300 + 300; omega

/-- THE ARRAY after the region: the message update of the message array, the bond input and the hidden weights. -/
theorem final_upd (c : Dev nD) :
    (dat1 (F := Ideal) V c).arrAt 3 cfg1.N
      = Cert.Mpn.upd (M := 200000) (K := 300) (N := 300) (V c main_v23) (V c main_v0_0) (V c main_arg7) :=
  (dat1 (F := Ideal) V c).arrAt_eq_of_cover 3
    (Cert.Mpn.upd (M := 200000) (K := 300) (N := 300) (V c main_v23) (V c main_v0_0) (V c main_arg7))
    (fun t _ => flushed_upd V c t) cover

end Cert.KernelIdeal.Region1

end
-- ==== Proof.Region2.lean ====
/-
  A message update, from blocks to the array. The region walks 50 row blocks of 4000 rows; at point t the body reads
  rows 4000 t … 4000 t + 3999 of the combined message and of the bond input, and the whole hidden weight matrix, and
  writes the rectified sum `relu (inp + mc · W_h)` of those blocks to the same rows of the output. An entry (r, c) of
  a message update reads only row r of the message matrix, the bond input's entry (r, c) and column c of the weights,
  so each block written back is a block of ONE function of the three whole arrays; the 50 blocks tile the 200000
  rows (row r lies in block r / 4000), hence the output array ends holding the message update of the three arrays as
  the region finds them.
-/
import proofs.«139420_j15530601742850_1_alg».proof.Proof.Gen.KernelIdeal.Frame
import proofs.«139420_j15530601742850_1_alg».proof.Proof.Mpn
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Region2

open Cert.KernelIdeal Cert.KernelIdeal.Gen

-- the buffer contents the region is entered with
variable (V : (c : Dev nD) → (b : Ref sig .tc) → Buf (Elt Ideal) ((c : Thread nD τ).loc b))

/-- The block product's printed dimension record is the plain row-by-column product of a [4000, 300] block with a
    [300, 300] matrix. -/
theorem dot_is_plain : dot_S4000x300_S300x300_S4000x300_1_0_0_1_n_n = DotDims.plain 4000 300 300 := rfl

/-- The body's payload on a block: the rectified sum of the bond-input block and the message block times the
    hidden weights (at the extended reals the narrowing of the operands is the identity). -/
theorem pay_upd (x p : Vec Ideal S4000x300 .f32) (w : Vec Ideal S300x300 .f32) :
    k2_pay1 (F := Ideal) x w p = Cert.Mpn.upd (M := 4000) (K := 300) (N := 300) x p w := by
  unfold k2_pay1
  dsimp only
  rw [shapeCast_self, shapeCast_self]
  show Cert.Lib.Rectify.relu (fun j => p j + FloatOps.matmul (F := Ideal) (φ₁ := .f32) (φ₂ := .f32) (DotDims.plain 4000 300 300) none x w (constant (F := Ideal) _ .f32 0x00000000#32) j) = _
  rw [Cert.Mpn.mm_of_matmul]
  rfl

/-- An entry of a message update only reads row `y 0` of the message matrix, the bond input's entry at `y`, and
    column `y 1` of the weights: a block of rows gives the whole array's entries at the block's rows. -/
theorem upd_rows {Mb M K N : Nat} (mb : (⟨2, ![Mb, K]⟩ : Shape).Idx → EReal) (mc : (⟨2, ![M, K]⟩ : Shape).Idx → EReal)
    (ib : (⟨2, ![Mb, N]⟩ : Shape).Idx → EReal) (inp : (⟨2, ![M, N]⟩ : Shape).Idx → EReal)
    (wb W : (⟨2, ![K, N]⟩ : Shape).Idx → EReal) (y : (⟨2, ![Mb, N]⟩ : Shape).Idx) (i : (⟨2, ![M, N]⟩ : Shape).Idx)
    (hm : ∀ k : Fin K, mb (ix2 (y 0) k) = mc (ix2 (i 0) k)) (hi : ib y = inp i)
    (hw : ∀ k : Fin K, wb (ix2 k (y 1)) = W (ix2 k (i 1))) :
    Cert.Mpn.upd mb ib wb y = Cert.Mpn.upd mc inp W i := by
  show Cert.Lib.Rectify.relu1 (ib y + Cert.Mpn.mm mb wb y) = Cert.Lib.Rectify.relu1 (inp i + Cert.Mpn.mm mc W i)
  rw [hi, Cert.Mpn.mm_congr mb mc wb W y i hm hw]

theorem zero_off : (![0, 0] : Fin 2 → Nat) = fun _ => 0 := funext fun a => by fin_cases a <;> rfl

/-- The printed index maps, decided over the grid: the three row-block windows sit at block (t, 0) at point t, the
    weight window at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The message block at point t is rows 4000 t … 4000 t + 3999 of the message array. -/
theorem msg_blk (c : Dev nD) (t : Fin cfg2.N) (y : S4000x300.Idx) (i : S200000x300.Idx)
    (h0 : (i 0).val = t.val * 4000 + (y 0).val) (h1 : (i 1).val = (y 1).val) :
    iblk2 (F := Ideal) V c 0 t y = V c main_v47 i := by
  obtain ⟨e00, e01, -, -, -, -, -, -⟩ := idx_facts t
  show V c main_v47 (((cfg2.win 0).blk t).view.emb y) = V c main_v47 i
  refine congrArg (V c main_v47) ?_
  funext a; apply Fin.ext
  match a with
  | ⟨0, _⟩ => show win2_0.index t (0 : Fin 2) * 4000 + 1 * (y 0).val = (i 0).val; omega
  | ⟨1, _⟩ => show win2_0.index t (1 : Fin 2) * 300 + 1 * (y 1).val = (i 1).val; omega

/-- The bond-input block at point t is the same rows of the bond-input array. -/
theorem inp_blk (c : Dev nD) (t : Fin cfg2.N) (y : S4000x300.Idx) (i : S200000x300.Idx)
    (h0 : (i 0).val = t.val * 4000 + (y 0).val) (h1 : (i 1).val = (y 1).val) :
    iblk2 (F := Ideal) V c 1 t y = V c main_v0_0 i := by
  obtain ⟨-, -, e10, e11, -, -, -, -⟩ := idx_facts t
  show V c main_v0_0 (((cfg2.win 1).blk t).view.emb y) = V c main_v0_0 i
  refine congrArg (V c main_v0_0) ?_
  funext a; apply Fin.ext
  match a with
  | ⟨0, _⟩ => show win2_1.index t (0 : Fin 2) * 4000 + 1 * (y 0).val = (i 0).val; omega
  | ⟨1, _⟩ => show win2_1.index t (1 : Fin 2) * 300 + 1 * (y 1).val = (i 1).val; omega

/-- The weight block at every point is the whole weight matrix. -/
theorem wgt_blk (c : Dev nD) (t : Fin cfg2.N) (y : S300x300.Idx) (i : S300x300.Idx)
    (h0 : (i 0).val = (y 0).val) (h1 : (i 1).val = (y 1).val) :
    iblk2 (F := Ideal) V c 2 t y = V c main_arg7 i := by
  obtain ⟨-, -, -, -, e20, e21, -, -⟩ := idx_facts t
  show V c main_arg7 (((cfg2.win 2).blk t).view.emb y) = V c main_arg7 i
  refine congrArg (V c main_arg7) ?_
  funext a; apply Fin.ext
  match a with
  | ⟨0, _⟩ => show win2_2.index t (0 : Fin 2) * 300 + 1 * (y 0).val = (i 0).val; omega
  | ⟨1, _⟩ => show win2_2.index t (1 : Fin 2) * 300 + 1 * (y 1).val = (i 1).val; omega

/-- Where the output block's entry y sits in the output array at point t: row 4000 t + y 0, column y 1. -/
theorem out_emb (t : Fin cfg2.N) (y : S4000x300.Idx) :
    ((((cfg2.win 3).blk t).view.emb y) 0).val = t.val * 4000 + (y 0).val
    ∧ ((((cfg2.win 3).blk t).view.emb y) 1).val = (y 1).val := by
  obtain ⟨-, -, -, -, -, -, e30, e31⟩ := idx_facts t
  constructor
  · show win2_3.index t (0 : Fin 2) * 4000 + 1 * (y 0).val = _; omega
  · show win2_3.index t (1 : Fin 2) * 300 + 1 * (y 1).val = _; omega

/-- WHAT POINT t WRITES BACK is block t of the message update of the three arrays as the region finds them. -/
theorem flushed_upd (c : Dev nD) (t : Fin cfg2.N) :
    (dat2 (F := Ideal) V c).flushed 3 t = ((cfg2.win 3).blk t).view.read (Elt Ideal)
      (Cert.Mpn.upd (M := 200000) (K := 300) (N := 300) (V c main_v47) (V c main_v0_0) (V c main_arg7)) := by
  show (cfg2.win 3).cut (grid2.coords t) ((dat2 (F := Ideal) V c).after 3 t) = _
  rw [after2_3]
  unfold out2_3
  rw [View.canon_unit_zero zero_off]
  simp only [View.ld_unit_zero (S := S4000x300) zero_off, View.ld_unit_zero (S := S300x300) zero_off]
  refine (pay_upd (iblk2 (F := Ideal) V c 0 t) (iblk2 (F := Ideal) V c 1 t) (iblk2 (F := Ideal) V c 2 t)).trans ?_
  funext y
  rw [View.read_apply]
  obtain ⟨o0, o1⟩ := out_emb t y
  refine upd_rows (iblk2 (F := Ideal) V c 0 t) (V c main_v47) (iblk2 (F := Ideal) V c 1 t) (V c main_v0_0)
    (iblk2 (F := Ideal) V c 2 t) (V c main_arg7) y (((cfg2.win 3).blk t).view.emb y) ?_ ?_ ?_
  · intro k
    exact msg_blk V c t (ix2 (y 0) k) (ix2 ((((cfg2.win 3).blk t).view.emb y) 0) k) o0 rfl
  · exact inp_blk V c t y (((cfg2.win 3).blk t).view.emb y) o0 o1
  · intro k
    exact wgt_blk V c t (ix2 k (y 1)) (ix2 k ((((cfg2.win 3).blk t).view.emb y) 1)) rfl o1

/-- An index of the output array is in point t's block iff each coordinate is in the block's range on its axis. -/
theorem mem_blk (t : Fin cfg2.N) (i : S200000x300.Idx) :
    i ∈ ((cfg2.win 3).blk t).view.set ↔ ∀ a : Fin 2, win2_3.index t a * S4000x300.size a ≤ (i a).val ∧ (i a).val < win2_3.index t a * S4000x300.size a + S4000x300.size a := by
  show i ∈ ((View.whole main_v48).slice (win2_3.rect t)).set ↔ _
  rw [View.set_slice_whole, Rect.mem_set_unit]
  exact Iff.rfl

/-- Every row r of the output array is in the block of point r / 4000. -/
theorem cover (i : S200000x300.Idx) :
    ∃ t : Fin cfg2.N, (cfg2.win 3).flush t = true ∧ i ∈ ((cfg2.win 3).blk t).view.set := by
  have hi0 : (i 0).val < 200000 := (i 0).isLt
  have hi1 : (i 1).val < 300 := (i 1).isLt
  have hN : cfg2.N = 50 := N_2
  have ht : (i 0).val / 4000 < cfg2.N := by rw [hN]; omega
  obtain ⟨-, -, -, -, -, -, e30, e31⟩ := idx_facts ⟨(i 0).val / 4000, ht⟩
  have q0 : win2_3.index ⟨(i 0).val / 4000, ht⟩ (0 : Fin 2) = (i 0).val / 4000 := e30
  refine ⟨⟨(i 0).val / 4000, ht⟩, flush2_3 _, ?_⟩
  rw [mem_blk]
  intro a
  match a with
  | ⟨0, _⟩ => show win2_3.index ⟨(i 0).val / 4000, ht⟩ (0 : Fin 2) * 4000 ≤ (i 0).val ∧ (i 0).val < win2_3.index ⟨(i 0).val / 4000, ht⟩ (0 : Fin 2) * 4000 + 4000; omega
  | ⟨1, _⟩ => show win2_3.index ⟨(i 0).val / 4000, ht⟩ (1 : Fin 2) * 300 ≤ (i 1).val ∧ (i 1).val < win2_3.index ⟨(i 0).val / 4000, ht⟩ (1 : Fin 2) * 300 + 300; omega

/-- THE ARRAY after the region: the message update of the message array, the bond input and the hidden weights. -/
theorem final_upd (c : Dev nD) :
    (dat2 (F := Ideal) V c).arrAt 3 cfg2.N
      = Cert.Mpn.upd (M := 200000) (K := 300) (N := 300) (V c main_v47) (V c main_v0_0) (V c main_arg7) :=
  (dat2 (F := Ideal) V c).arrAt_eq_of_cover 3
    (Cert.Mpn.upd (M := 200000) (K := 300) (N := 300) (V c main_v47) (V c main_v0_0) (V c main_arg7))
    (fun t _ => flushed_upd V c t) cover

end Cert.KernelIdeal.Region2

end
-- ==== Proof.Region3.lean ====
/-
  The atom layer, block of rows by block of rows. Its output array has 100000 rows and 300 columns and is written in
  20 blocks of 5000 consecutive rows. Block t is computed from rows 5000·t … 5000·t + 4999 of the atom features
  [100000, 133] and of the aggregated messages [100000, 300], and from the whole top weights [133, 300], bottom
  weights [300, 300] and bias row [1, 300]: the two block products added, plus the bias row repeated down the block,
  rectified. Entry (r, c) of `outp` reads only row r of the two left operands, column c of the two weight matrices
  and entry (0, c) of the bias (`outp_congr`), so what point t writes is block t of `outp` of the whole arrays; row r
  lies in block r / 5000, so the 20 blocks cover the array, which therefore ends holding `outp` of the arrays the
  region was entered with.
-/
import proofs.«139420_j15530601742850_1_alg».proof.Proof.Gen.KernelIdeal.Frame
import proofs.«139420_j15530601742850_1_alg».proof.Proof.Mpn
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Region3

open Cert.KernelIdeal Cert.KernelIdeal.Gen

/-! ## The body's value as a function of its blocks -/

/-- The product of a [5000, 133] block with a [133, 300] matrix contracts the left operand's columns against the right
    operand's rows, with no batch axis: the plain matrix product. -/
theorem dot_atoms_plain : dot_S5000x133_S133x300_S5000x300_1_0_0_1_n_n = DotDims.plain 5000 133 300 := rfl

/-- Likewise the product of a [5000, 300] block with a [300, 300] matrix. -/
theorem dot_msgs_plain : dot_S5000x300_S300x300_S5000x300_1_0_0_1_n_n = DotDims.plain 5000 300 300 := rfl

/-- A plain block product into a zero accumulator is the entrywise sum of products `mm`, whatever float formats its
    operands are declared at: at the extended reals every format has the same values. -/
theorem mm_of_matmul_any {φ₁ φ₂ : FTy} (M K N : Nat) (prec : Option ContractPrecision)
    (X : FVec Ideal ⟨2, ![M, K]⟩ φ₁) (W : FVec Ideal ⟨2, ![K, N]⟩ φ₂) :
    FloatOps.matmul (DotDims.plain M K N) prec X W (constant _ .f32 0x00000000#32) = Cert.Mpn.mm X W := by
  funext j
  rw [Ideal.matmul_constant_zero_apply, ← Equiv.sum_comp (Cert.Lib.Dense.ce M K N).symm]
  exact Finset.sum_congr rfl fun k _ => by rw [Cert.Lib.Dense.plain_lhsIdx, Cert.Lib.Dense.plain_rhsIdx]

/-- The body's value on a block of 5000 rows: the atom layer `outp` of the block of atom features, the block of
    aggregated messages, the two weight matrices and the bias row. Narrowing an operand to a shorter format changes no
    value at the extended reals, a reshape to the same shape is the identity, and the bias row repeated down the block
    reads, at (r, c), the row's entry (0, c). -/
theorem pay_atom_layer (x0 : Vec Ideal S5000x133 .f32) (x1 : Vec Ideal S5000x300 .f32) (x2 : Vec Ideal S133x300 .f32)
    (x3 : Vec Ideal S300x300 .f32) (x4 : Vec Ideal S1x300 .f32) :
    k3_pay1 x0 x1 x2 x3 x4 = Cert.Mpn.outp (M := 5000) (Ka := 133) (Kb := 300) (N := 300) x0 x1 x2 x3 x4 := by
  unfold k3_pay1
  simp only [shapeCast_self]
  rw [dot_atoms_plain, dot_msgs_plain, Cert.Lib.Rectify.relu_vec]
  unfold Cert.Mpn.outp
  refine congrArg Cert.Lib.Rectify.relu (funext fun j => ?_)
  rw [addf_apply, addf_apply]
  simp only [matmul]
  rw [mm_of_matmul_any, mm_of_matmul_any, broadcastTo_apply x4 broadcasts_S1x300_S5000x300 j (ix2 0 (j 1))]
  · rfl
  · intro a
    match a with
    | ⟨0, _⟩ => simp
    | ⟨1, _⟩ =>
      show (j 1).val = if (300 : Nat) = 1 then 0 else (j 1).val
      rw [if_neg (by decide)]

/-- An entry of the atom layer reads only row `y 0` of the atom features and of the aggregated messages, column `y 1`
    of the top and bottom weights, and entry (0, `y 1`) of the bias row. -/
theorem outp_congr {Mb M Ka Kb N : Nat}
    (fb : (⟨2, ![Mb, Ka]⟩ : Shape).Idx → EReal) (fa : (⟨2, ![M, Ka]⟩ : Shape).Idx → EReal)
    (ab : (⟨2, ![Mb, Kb]⟩ : Shape).Idx → EReal) (am : (⟨2, ![M, Kb]⟩ : Shape).Idx → EReal)
    (woa' woa : (⟨2, ![Ka, N]⟩ : Shape).Idx → EReal) (wom' wom : (⟨2, ![Kb, N]⟩ : Shape).Idx → EReal)
    (b' b : (⟨2, ![1, N]⟩ : Shape).Idx → EReal)
    (y : (⟨2, ![Mb, N]⟩ : Shape).Idx) (i : (⟨2, ![M, N]⟩ : Shape).Idx)
    (hf : ∀ k : Fin Ka, fb (ix2 (y 0) k) = fa (ix2 (i 0) k))
    (ha : ∀ k : Fin Kb, ab (ix2 (y 0) k) = am (ix2 (i 0) k))
    (hwa : ∀ k : Fin Ka, woa' (ix2 k (y 1)) = woa (ix2 k (i 1)))
    (hwm : ∀ k : Fin Kb, wom' (ix2 k (y 1)) = wom (ix2 k (i 1)))
    (hb : b' (ix2 0 (y 1)) = b (ix2 0 (i 1))) :
    Cert.Mpn.outp fb ab woa' wom' b' y = Cert.Mpn.outp fa am woa wom b i := by
  show Cert.Lib.Rectify.relu1 (Cert.Mpn.mm fb woa' y + Cert.Mpn.mm ab wom' y + b' (ix2 0 (y 1)))
    = Cert.Lib.Rectify.relu1 (Cert.Mpn.mm fa woa i + Cert.Mpn.mm am wom i + b (ix2 0 (i 1)))
  rw [Cert.Mpn.mm_congr fb fa woa' woa y i hf hwa, Cert.Mpn.mm_congr ab am wom' wom y i ha hwm, hb]

/-! ## Where the blocks sit -/

theorem off_zero : (![0, 0] : Fin 2 → Nat) = fun _ => 0 := funext fun a => by fin_cases a <;> rfl

/-- At point t the blocks of the atom features, of the aggregated messages and of the output are row block t (column
    block 0); the two weight matrices and the bias row are whole, at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

-- the buffer contents the region is entered with
variable (V : (c : Dev nD) → (b : Ref sig .tc) → Buf (Elt Ideal) ((c : Thread nD τ).loc b))

/-- The atom layer of the whole arrays as the region finds them. -/
abbrev atomLayer (c : Dev nD) : S100000x300.Idx → EReal :=
  Cert.Mpn.outp (M := 100000) (Ka := 133) (Kb := 300) (N := 300) (V c main_arg0) (V c main_v56) (V c main_v57) (V c main_v58) (V c main_v59)

/-- What point t writes back is row block t of the atom layer of the whole arrays: entry (r, c) of the block is entry
    (5000·t + r, c) of the array, its row of atom features and of aggregated messages is row r of their block t, and
    the weights and the bias are read whole. -/
theorem flushed_atom_layer (c : Dev nD) (t : Fin cfg3.N) :
    (dat3 (F := Ideal) V c).flushed 5 t = ((cfg3.win 5).blk t).view.read (Elt Ideal) (atomLayer V c) := by
  show (cfg3.win 5).cut (grid3.coords t) ((dat3 (F := Ideal) V c).after 5 t) = _
  rw [after3_5]
  unfold out3_5
  rw [View.canon_unit_zero off_zero]
  simp only [View.ld_unit_zero (S := S5000x133) off_zero, View.ld_unit_zero (S := S5000x300) off_zero,
    View.ld_unit_zero (S := S133x300) off_zero, View.ld_unit_zero (S := S300x300) off_zero,
    View.ld_unit_zero (S := S1x300) off_zero]
  rw [pay_atom_layer]
  obtain ⟨e00, e01, e10, e11, e20, e21, e30, e31, e40, e41, e50, e51⟩ := idx_facts t
  funext y
  show Cert.Mpn.outp (M := 5000) (Ka := 133) (Kb := 300) (N := 300) (iblk3 V c 0 t) (iblk3 V c 1 t) (iblk3 V c 2 t) (iblk3 V c 3 t) (iblk3 V c 4 t) y
      = atomLayer V c (((cfg3.win 5).blk t).view.emb y)
  have hy0 : (y 0).val < 5000 := (y 0).isLt
  have hy1 : (y 1).val < 300 := (y 1).isLt
  -- a block's coordinate in the array: block index times block extent plus the coordinate inside the block
  have r0 : ((((cfg3.win 5).blk t).view.emb y) 0).val = win3_5.index t (0 : Fin 2) * 5000 + 1 * (y 0).val := rfl
  have r1 : ((((cfg3.win 5).blk t).view.emb y) 1).val = win3_5.index t (1 : Fin 2) * 300 + 1 * (y 1).val := rfl
  refine outp_congr (iblk3 V c 0 t) (V c main_arg0) (iblk3 V c 1 t) (V c main_v56) (iblk3 V c 2 t) (V c main_v57)
    (iblk3 V c 3 t) (V c main_v58) (iblk3 V c 4 t) (V c main_v59) y (((cfg3.win 5).blk t).view.emb y) ?_ ?_ ?_ ?_ ?_
  · -- row `y 0` of the block of atom features is row 5000·t + `y 0` of the array
    intro k
    show V c main_arg0 (((cfg3.win 0).blk t).view.emb (ix2 (y 0) k)) = _
    refine congrArg _ (funext fun a => Fin.ext ?_)
    match a with
    | ⟨0, _⟩ => show win3_0.index t (0 : Fin 2) * 5000 + 1 * (y 0).val = _; rw [r0]; omega
    | ⟨1, _⟩ => show win3_0.index t (1 : Fin 2) * 133 + 1 * k.val = k.val; omega
  · -- row `y 0` of the block of aggregated messages likewise
    intro k
    show V c main_v56 (((cfg3.win 1).blk t).view.emb (ix2 (y 0) k)) = _
    refine congrArg _ (funext fun a => Fin.ext ?_)
    match a with
    | ⟨0, _⟩ => show win3_1.index t (0 : Fin 2) * 5000 + 1 * (y 0).val = _; rw [r0]; omega
    | ⟨1, _⟩ => show win3_1.index t (1 : Fin 2) * 300 + 1 * k.val = k.val; omega
  · -- column `y 1` of the top weights, read whole
    intro k
    show V c main_v57 (((cfg3.win 2).blk t).view.emb (ix2 k (y 1))) = _
    refine congrArg _ (funext fun a => Fin.ext ?_)
    match a with
    | ⟨0, _⟩ => show win3_2.index t (0 : Fin 2) * 133 + 1 * k.val = k.val; omega
    | ⟨1, _⟩ => show win3_2.index t (1 : Fin 2) * 300 + 1 * (y 1).val = _; rw [r1]; omega
  · -- column `y 1` of the bottom weights, read whole
    intro k
    show V c main_v58 (((cfg3.win 3).blk t).view.emb (ix2 k (y 1))) = _
    refine congrArg _ (funext fun a => Fin.ext ?_)
    match a with
    | ⟨0, _⟩ => show win3_3.index t (0 : Fin 2) * 300 + 1 * k.val = k.val; omega
    | ⟨1, _⟩ => show win3_3.index t (1 : Fin 2) * 300 + 1 * (y 1).val = _; rw [r1]; omega
  · -- entry (0, `y 1`) of the bias row, read whole
    show V c main_v59 (((cfg3.win 4).blk t).view.emb (ix2 0 (y 1))) = _
    refine congrArg _ (funext fun a => Fin.ext ?_)
    match a with
    | ⟨0, _⟩ => show win3_4.index t (0 : Fin 2) * 1 + 1 * 0 = 0; omega
    | ⟨1, _⟩ => show win3_4.index t (1 : Fin 2) * 300 + 1 * (y 1).val = _; rw [r1]; omega

/-! ## The blocks cover the array -/

/-- An index of the output array is in point t's block iff each coordinate is in the block's range on its axis. -/
theorem mem_row_block (t : Fin cfg3.N) (i : S100000x300.Idx) :
    i ∈ ((cfg3.win 5).blk t).view.set ↔ ∀ a : Fin 2, win3_5.index t a * S5000x300.size a ≤ (i a).val
      ∧ (i a).val < win3_5.index t a * S5000x300.size a + S5000x300.size a := by
  show i ∈ ((View.whole main_v60).slice (win3_5.rect t)).set ↔ _
  rw [View.set_slice_whole, Rect.mem_set_unit]
  exact Iff.rfl

/-- Row r of the output lies in row block r / 5000, which is one of the 20 blocks since r < 100000. -/
theorem rows_covered (i : S100000x300.Idx) :
    ∃ t : Fin cfg3.N, (cfg3.win 5).flush t = true ∧ i ∈ ((cfg3.win 5).blk t).view.set := by
  have hi0 : (i 0).val < 100000 := (i 0).isLt
  have hi1 : (i 1).val < 300 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨_, _, _, _, _, _, _, _, _, _, e50, e51⟩ := idx_facts t
  refine ⟨t, flush3_5 t, ?_⟩
  rw [mem_row_block]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 300 ≤ (i 1).val ∧ (i 1).val < win3_5.index t (1 : Fin 2) * 300 + 300
    omega

/-- The output array after the region: the atom layer of the arrays the region was entered with. -/
theorem final_out (c : Dev nD) :
    (dat3 (F := Ideal) V c).arrAt 5 cfg3.N
      = Cert.Mpn.outp (M := 100000) (Ka := 133) (Kb := 300) (N := 300) (V c main_arg0) (V c main_v56) (V c main_v57) (V c main_v58) (V c main_v59) :=
  (dat3 (F := Ideal) V c).arrAt_eq_of_cover 5 (atomLayer V c) (fun t _ => flushed_atom_layer V c t) rows_covered

end Cert.KernelIdeal.Region3

end
-- ==== Proof.Chain.lean ====
/-
  The kernel program's run, read at the result buffer, is the network of the ten argument arrays at launch.

  The program is four kernel regions (the bond-input layer, two message updates, the atom layer) with a stretch of
  host array operations after each. Each region's result arrays are given, for any entry contents, as the dense layer
  of the arrays it reads; each stretch composes to a stage function (combined messages, neighbour sums, the split
  output weights, the molecule means) of the arrays it reads; and a buffer a segment does not write is unchanged
  across it. Walking back from the result buffer boundary by boundary, every array read is expressed by the launch
  contents of the arguments, and the composition is the network.
-/
import proofs.«139420_j15530601742850_1_alg».proof.Proof.Gen.KernelIdeal.Frame
import proofs.«139420_j15530601742850_1_alg».proof.Proof.Stages
import proofs.«139420_j15530601742850_1_alg».proof.Proof.Region0
import proofs.«139420_j15530601742850_1_alg».proof.Proof.Region1
import proofs.«139420_j15530601742850_1_alg».proof.Proof.Region2
import proofs.«139420_j15530601742850_1_alg».proof.Proof.Region3
import Idealize.ShloMosaic.Lib.StableHlo.Run

set_option maxRecDepth 16384

noncomputable section

open Idealize.ShloMosaic Idealize.ShloMosaic.TcCoe Idealize.SL.Sem

namespace Cert.KernelIdeal.Chain

open Cert.KernelIdeal Cert.KernelIdeal.Gen Cert.KernelIdeal.Stage

/-! ## The host stretches, at any float instance and any entry contents

Each stretch is a straight line of array operations. Read at the one buffer a later kernel region (or the return) takes
from it, the line composes to the stage function of the arrays it started from; every buffer the line does not write
holds afterwards what it held before. -/

section Stretch
variable {F : FTy → Type} [FloatOps F]

/-- The first stretch leaves, in the buffer the first message update reads, the combined message of the rectified bond input. -/
theorem hostOps1_v23 (W : Valuation τ sig (Elt F)) :
    StableHlo.after (hostOps1 (F := F)) W (Proc.devRef .tc main_v23)
      = combine (W (Proc.devRef .tc main_v0_1)) (W (Proc.devRef .tc main_arg2)) (W (Proc.devRef .tc main_arg3)) (W (Proc.devRef .tc main_arg4)) := by
  show StableHlo.after hostOps1 W (Proc.devRef .tc main_v23) = _
  open StableHlo in after_results_simp
  rfl

/-- The second stretch leaves, in the buffer the second message update reads, the combined message of the first update's result. -/
theorem hostOps2_v47 (W : Valuation τ sig (Elt F)) :
    StableHlo.after (hostOps2 (F := F)) W (Proc.devRef .tc main_v47)
      = combine (W (Proc.devRef .tc main_v24)) (W (Proc.devRef .tc main_arg2)) (W (Proc.devRef .tc main_arg3)) (W (Proc.devRef .tc main_arg4)) := by
  show StableHlo.after hostOps2 W (Proc.devRef .tc main_v47) = _
  open StableHlo in after_results_simp
  rfl

/-- The third stretch leaves every atom's neighbour sum of the second update's result, -/
theorem hostOps3_v56 (W : Valuation τ sig (Elt F)) :
    StableHlo.after (hostOps3 (F := F)) W (Proc.devRef .tc main_v56)
      = nbrSum (W (Proc.devRef .tc main_v48)) (W (Proc.devRef .tc main_arg2)) := by
  show StableHlo.after hostOps3 W (Proc.devRef .tc main_v56) = _
  open StableHlo in after_results_simp
  rfl

/-- the top 133 rows of the output weights, -/
theorem hostOps3_v57 (W : Valuation τ sig (Elt F)) :
    StableHlo.after (hostOps3 (F := F)) W (Proc.devRef .tc main_v57)
      = wTop (W (Proc.devRef .tc main_arg8)) := by
  show StableHlo.after hostOps3 W (Proc.devRef .tc main_v57) = _
  open StableHlo in after_results_simp
  rfl

/-- their bottom 300 rows, -/
theorem hostOps3_v58 (W : Valuation τ sig (Elt F)) :
    StableHlo.after (hostOps3 (F := F)) W (Proc.devRef .tc main_v58)
      = wBot (W (Proc.devRef .tc main_arg8)) := by
  show StableHlo.after hostOps3 W (Proc.devRef .tc main_v58) = _
  open StableHlo in after_results_simp
  rfl

/-- and the bias as a one-row matrix. -/
theorem hostOps3_v59 (W : Valuation τ sig (Elt F)) :
    StableHlo.after (hostOps3 (F := F)) W (Proc.devRef .tc main_v59)
      = bRow (W (Proc.devRef .tc main_arg9)) := by
  show StableHlo.after hostOps3 W (Proc.devRef .tc main_v59) = _
  open StableHlo in after_results_simp
  rfl

/-- The last stretch leaves the molecule means of the atom layer's result. -/
theorem hostOps4_v72 (W : Valuation τ sig (Elt F)) :
    StableHlo.after (hostOps4 (F := F)) W (Proc.devRef .tc main_v72)
      = pool (W (Proc.devRef .tc main_v60)) (W (Proc.devRef .tc main_arg5)) := by
  show StableHlo.after hostOps4 W (Proc.devRef .tc main_v72) = _
  open StableHlo in after_results_simp
  rfl

/-- The buffers the first stretch writes. -/
abbrev wr1 : List (Ref sig .tc) := [main_c, main_v1, main_v2, main_c_0, main_v3, main_v4, main_v5, main_v6, main_v7, main_cst, main_v8, main_c_1, main_v9, main_v10, main_c_2, main_v11, main_v12, main_v13, main_v14, main_v15, main_c_3, main_v16, main_v17, main_c_4, main_v18, main_v19, main_v20, main_v21, main_v22, main_v23]
/-- The buffers the second stretch writes. -/
abbrev wr2 : List (Ref sig .tc) := [main_c_5, main_v25, main_v26, main_c_6, main_v27, main_v28, main_v29, main_v30, main_v31, main_cst_7, main_v32, main_c_8, main_v33, main_v34, main_c_9, main_v35, main_v36, main_v37, main_v38, main_v39, main_c_10, main_v40, main_v41, main_c_11, main_v42, main_v43, main_v44, main_v45, main_v46, main_v47]
/-- The buffers the third stretch writes. -/
abbrev wr3 : List (Ref sig .tc) := [main_c_12, main_v49, main_v50, main_c_13, main_v51, main_v52, main_v53, main_v54, main_v55, main_cst_14, main_v56, main_v57, main_v58, main_v59]

/-- A buffer the first stretch does not write holds after it what it held before. -/
theorem keep1 (W : Valuation τ sig (Elt F)) (b : Ref sig .tc) (hb : b ∉ wr1) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals (apply StableHlo.devRef_ne_of_ne; intro e; subst e; exact hb (by decide))))

/-- A buffer the second stretch does not write holds after it what it held before. -/
theorem keep2 (W : Valuation τ sig (Elt F)) (b : Ref sig .tc) (hb : b ∉ wr2) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.reshape_writes, Finset.mem_singleton]
    repeat' apply And.intro
    all_goals (apply StableHlo.devRef_ne_of_ne; intro e; subst e; exact hb (by decide))))

/-- A buffer the third stretch does not write holds after it what it held before. -/
theorem keep3 (W : Valuation τ sig (Elt F)) (b : Ref sig .tc) (hb : b ∉ wr3) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.ternary_writes, StableHlo.reshape_writes, Finset.mem_singleton]
    repeat' apply And.intro
    all_goals (apply StableHlo.devRef_ne_of_ne; intro e; subst e; exact hb (by decide))))

end Stretch

/-! ## The walk from the launch to the return

The kernel program alternates kernel regions and host stretches. At every boundary a buffer holds either what a
region's write-backs leave in one of its result arrays, or what a stretch's last operation computed, or, if the
segment before the boundary did not write it, what it held one boundary earlier. Walking back from the result buffer,
each buffer a segment reads is named, boundary by boundary, as a function of the ten argument arrays at launch. -/

/-- Equal arguments give equal values (functions of two to five arguments). -/
private theorem congr2 {α β γ : Sort _} (f : α → β → γ) {a a' : α} {b b' : β} (ha : a = a') (hb : b = b') :
    f a b = f a' b' := by subst ha hb; rfl
private theorem congr3 {α β γ δ : Sort _} (f : α → β → γ → δ) {a a' : α} {b b' : β} {c c' : γ}
    (ha : a = a') (hb : b = b') (hc : c = c') : f a b c = f a' b' c' := by subst ha hb hc; rfl
private theorem congr4 {α β γ δ ε : Sort _} (f : α → β → γ → δ → ε) {a a' : α} {b b' : β} {c c' : γ} {d d' : δ}
    (ha : a = a') (hb : b = b') (hc : c = c') (hd : d = d') : f a b c d = f a' b' c' d' := by subst ha hb hc hd; rfl
private theorem congr5 {α β γ δ ε ζ : Sort _} (f : α → β → γ → δ → ε → ζ) {a a' : α} {b b' : β} {c c' : γ} {d d' : δ}
    {e e' : ε} (ha : a = a') (hb : b = b') (hc : c = c') (hd : d = d') (he : e = e') :
    f a b c d e = f a' b' c' d' e' := by subst ha hb hc hd he; rfl

section Walk
variable (m : (ℓ : Loc nD τ sig) → Buf (Elt Ideal) ℓ) (ρ : Dev nD → PrngReg) (c : Dev nD)

/-- An array's contents at launch. -/
abbrev atLaunch (b : Ref sig .tc) : Buf (Elt Ideal) ((c.tc : Thread nD τ).loc b) := m ((c.tc : Thread nD τ).loc b)

/-- The bond input: the bond features times the input weights. -/
def bondIn : (⟨S200000x300, .f32⟩ : BufTy).Contents (Elt Ideal) :=
  Cert.Mpn.mm (M := 200000) (K := 147) (N := 300) (atLaunch m c main_arg1) (atLaunch m c main_arg6)
/-- The initial messages: the rectified bond input. -/
def msg0 : (⟨S200000x300, .f32⟩ : BufTy).Contents (Elt Ideal) := Cert.Lib.Rectify.relu (bondIn m c)
/-- The messages after the first update. -/
def msg1 : (⟨S200000x300, .f32⟩ : BufTy).Contents (Elt Ideal) :=
  Cert.Mpn.upd (M := 200000) (K := 300) (N := 300)
    (combine (F := Ideal) (msg0 m c) (atLaunch m c main_arg2) (atLaunch m c main_arg3) (atLaunch m c main_arg4)) (bondIn m c) (atLaunch m c main_arg7)
/-- The messages after the second update. -/
def msg2 : (⟨S200000x300, .f32⟩ : BufTy).Contents (Elt Ideal) :=
  Cert.Mpn.upd (M := 200000) (K := 300) (N := 300)
    (combine (F := Ideal) (msg1 m c) (atLaunch m c main_arg2) (atLaunch m c main_arg3) (atLaunch m c main_arg4)) (bondIn m c) (atLaunch m c main_arg7)
/-- The atom layer's result. -/
def atomOut : (⟨S100000x300, .f32⟩ : BufTy).Contents (Elt Ideal) :=
  Cert.Mpn.outp (M := 100000) (Ka := 133) (Kb := 300) (N := 300) (atLaunch m c main_arg0) (nbrSum (F := Ideal) (msg2 m c) (atLaunch m c main_arg2))
    (wTop (F := Ideal) (atLaunch m c main_arg8)) (wBot (F := Ideal) (atLaunch m c main_arg8)) (bRow (F := Ideal) (atLaunch m c main_arg9))

/-! ### A buffer no segment so far has written still holds its launch contents -/

theorem W1_L (b : Ref sig .tc) (h0 : ∀ w, Pipeline.arrRef spec0 w ≠ b) :
    W1 m ρ c (Proc.devRef .tc b) = (atLaunch m c b) := W1_of_ne m ρ c b h0
theorem W2_L (b : Ref sig .tc) (h0 : ∀ w, Pipeline.arrRef spec0 w ≠ b) (h1 : b ∉ wr1) :
    W2 m ρ c (Proc.devRef .tc b) = (atLaunch m c b) := (keep1 (W1 m ρ c) b h1).trans (W1_L m ρ c b h0)
theorem W3_L (b : Ref sig .tc) (h0 : ∀ w, Pipeline.arrRef spec0 w ≠ b) (h1 : b ∉ wr1)
    (h2 : ∀ w, Pipeline.arrRef spec1 w ≠ b) :
    W3 m ρ c (Proc.devRef .tc b) = (atLaunch m c b) := (W3_of_ne m ρ c b h2).trans (W2_L m ρ c b h0 h1)
theorem W4_L (b : Ref sig .tc) (h0 : ∀ w, Pipeline.arrRef spec0 w ≠ b) (h1 : b ∉ wr1)
    (h2 : ∀ w, Pipeline.arrRef spec1 w ≠ b) (h3 : b ∉ wr2) :
    W4 m ρ c (Proc.devRef .tc b) = (atLaunch m c b) := (keep2 (W3 m ρ c) b h3).trans (W3_L m ρ c b h0 h1 h2)
theorem W5_L (b : Ref sig .tc) (h0 : ∀ w, Pipeline.arrRef spec0 w ≠ b) (h1 : b ∉ wr1)
    (h2 : ∀ w, Pipeline.arrRef spec1 w ≠ b) (h3 : b ∉ wr2) (h4 : ∀ w, Pipeline.arrRef spec2 w ≠ b) :
    W5 m ρ c (Proc.devRef .tc b) = (atLaunch m c b) := (W5_of_ne m ρ c b h4).trans (W4_L m ρ c b h0 h1 h2 h3)
theorem W6_L (b : Ref sig .tc) (h0 : ∀ w, Pipeline.arrRef spec0 w ≠ b) (h1 : b ∉ wr1)
    (h2 : ∀ w, Pipeline.arrRef spec1 w ≠ b) (h3 : b ∉ wr2) (h4 : ∀ w, Pipeline.arrRef spec2 w ≠ b) (h5 : b ∉ wr3) :
    W6 m ρ c (Proc.devRef .tc b) = (atLaunch m c b) := (keep3 (W5 m ρ c) b h5).trans (W5_L m ρ c b h0 h1 h2 h3 h4)
theorem W7_L (b : Ref sig .tc) (h0 : ∀ w, Pipeline.arrRef spec0 w ≠ b) (h1 : b ∉ wr1)
    (h2 : ∀ w, Pipeline.arrRef spec1 w ≠ b) (h3 : b ∉ wr2) (h4 : ∀ w, Pipeline.arrRef spec2 w ≠ b) (h5 : b ∉ wr3)
    (h6 : ∀ w, Pipeline.arrRef spec3 w ≠ b) :
    W7 m ρ c (Proc.devRef .tc b) = (atLaunch m c b) := (W7_of_ne m ρ c b h6).trans (W6_L m ρ c b h0 h1 h2 h3 h4 h5)

/-! ### After the bond-input region -/

theorem W1_v0_0 : W1 m ρ c (Proc.devRef .tc main_v0_0) = bondIn m c :=
  (W1_arr m ρ c 2).trans (Cert.KernelIdeal.Region0.final_inp (V0 m ρ) c)
theorem W1_v0_1 : W1 m ρ c (Proc.devRef .tc main_v0_1) = msg0 m c :=
  (W1_arr m ρ c 3).trans (Cert.KernelIdeal.Region0.final_msg (V0 m ρ) c)

/-! ### After the first stretch: what the first message update reads -/

theorem W2_v0_0 : W2 m ρ c (Proc.devRef .tc main_v0_0) = bondIn m c :=
  (keep1 (W1 m ρ c) main_v0_0 (by decide)).trans (W1_v0_0 m ρ c)
theorem W2_v23 : W2 m ρ c (Proc.devRef .tc main_v23)
    = combine (F := Ideal) (msg0 m c) (atLaunch m c main_arg2) (atLaunch m c main_arg3) (atLaunch m c main_arg4) :=
  (hostOps1_v23 (W1 m ρ c)).trans (congr4 (combine (F := Ideal)) (W1_v0_1 m ρ c) (W1_L m ρ c main_arg2 (by decide))
    (W1_L m ρ c main_arg3 (by decide)) (W1_L m ρ c main_arg4 (by decide)))

/-! ### After the first message update (the bond input and the hidden weights are inputs of the region: kept) -/

theorem W3_v24 : W3 m ρ c (Proc.devRef .tc main_v24) = msg1 m c :=
  (W3_arr m ρ c 3).trans ((Cert.KernelIdeal.Region1.final_upd (V2 m ρ) c).trans
    (congr3 (Cert.Mpn.upd (M := 200000) (K := 300) (N := 300)) (W2_v23 m ρ c) (W2_v0_0 m ρ c)
      (W2_L m ρ c main_arg7 (by decide) (by decide))))
theorem W3_v0_0 : W3 m ρ c (Proc.devRef .tc main_v0_0) = bondIn m c :=
  (W3_arr m ρ c 1).trans ((((dat1 (V2 m ρ) c).arrAt_in 1 rfl _).trans (A_eq1 (V2 m ρ) c 1)).trans (W2_v0_0 m ρ c))
theorem W3_arg7 : W3 m ρ c (Proc.devRef .tc main_arg7) = (atLaunch m c main_arg7) :=
  (W3_arr m ρ c 2).trans ((((dat1 (V2 m ρ) c).arrAt_in 2 rfl _).trans (A_eq1 (V2 m ρ) c 2)).trans
    (W2_L m ρ c main_arg7 (by decide) (by decide)))

/-! ### After the second stretch: what the second message update reads -/

theorem W4_v0_0 : W4 m ρ c (Proc.devRef .tc main_v0_0) = bondIn m c :=
  (keep2 (W3 m ρ c) main_v0_0 (by decide)).trans (W3_v0_0 m ρ c)
theorem W4_arg7 : W4 m ρ c (Proc.devRef .tc main_arg7) = (atLaunch m c main_arg7) :=
  (keep2 (W3 m ρ c) main_arg7 (by decide)).trans (W3_arg7 m ρ c)
theorem W4_v47 : W4 m ρ c (Proc.devRef .tc main_v47)
    = combine (F := Ideal) (msg1 m c) (atLaunch m c main_arg2) (atLaunch m c main_arg3) (atLaunch m c main_arg4) :=
  (hostOps2_v47 (W3 m ρ c)).trans (congr4 (combine (F := Ideal)) (W3_v24 m ρ c) (W3_L m ρ c main_arg2 (by decide) (by decide) (by decide))
    (W3_L m ρ c main_arg3 (by decide) (by decide) (by decide)) (W3_L m ρ c main_arg4 (by decide) (by decide) (by decide)))

/-! ### After the second message update -/

theorem W5_v48 : W5 m ρ c (Proc.devRef .tc main_v48) = msg2 m c :=
  (W5_arr m ρ c 3).trans ((Cert.KernelIdeal.Region2.final_upd (V4 m ρ) c).trans
    (congr3 (Cert.Mpn.upd (M := 200000) (K := 300) (N := 300)) (W4_v47 m ρ c) (W4_v0_0 m ρ c) (W4_arg7 m ρ c)))

/-! ### After the third stretch: what the atom layer reads -/

theorem W6_v56 : W6 m ρ c (Proc.devRef .tc main_v56) = nbrSum (F := Ideal) (msg2 m c) (atLaunch m c main_arg2) :=
  (hostOps3_v56 (W5 m ρ c)).trans (congr2 (nbrSum (F := Ideal)) (W5_v48 m ρ c)
    (W5_L m ρ c main_arg2 (by decide) (by decide) (by decide) (by decide) (by decide)))
theorem W6_v57 : W6 m ρ c (Proc.devRef .tc main_v57) = wTop (F := Ideal) (atLaunch m c main_arg8) :=
  (hostOps3_v57 (W5 m ρ c)).trans (congrArg (wTop (F := Ideal)) (W5_L m ρ c main_arg8 (by decide) (by decide) (by decide) (by decide) (by decide)))
theorem W6_v58 : W6 m ρ c (Proc.devRef .tc main_v58) = wBot (F := Ideal) (atLaunch m c main_arg8) :=
  (hostOps3_v58 (W5 m ρ c)).trans (congrArg (wBot (F := Ideal)) (W5_L m ρ c main_arg8 (by decide) (by decide) (by decide) (by decide) (by decide)))
theorem W6_v59 : W6 m ρ c (Proc.devRef .tc main_v59) = bRow (F := Ideal) (atLaunch m c main_arg9) :=
  (hostOps3_v59 (W5 m ρ c)).trans (congrArg (bRow (F := Ideal)) (W5_L m ρ c main_arg9 (by decide) (by decide) (by decide) (by decide) (by decide)))

/-! ### After the atom layer -/

theorem W7_v60 : W7 m ρ c (Proc.devRef .tc main_v60) = atomOut m c :=
  (W7_arr m ρ c 5).trans ((Cert.KernelIdeal.Region3.final_out (V6 m ρ) c).trans
    (congr5 (Cert.Mpn.outp (M := 100000) (Ka := 133) (Kb := 300) (N := 300))
      (W6_L m ρ c main_arg0 (by decide) (by decide) (by decide) (by decide) (by decide) (by decide)) (W6_v56 m ρ c) (W6_v57 m ρ c) (W6_v58 m ρ c) (W6_v59 m ρ c)))

end Walk

variable (m : (ℓ : Loc nD τ sig) → Buf (Elt Ideal) ℓ) (ρ : Dev nD → PrngReg)

/-- What the result buffer holds at the last boundary is the network of the launch contents of the ten arguments. -/
theorem result_eq (c : Dev nD) :
    W8 (F := Ideal) m ρ c (Proc.devRef .tc main_v72) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (hostOps4_v72 (W7 m ρ c)).trans ((congr2 (pool (F := Ideal)) (W7_v60 m ρ c)
    (W7_L m ρ c main_arg5 (by decide) (by decide) (by decide) (by decide) (by decide) (by decide) (by decide))).trans ?_)
  -- the molecule means of the atom layer's result are the network, its named intermediate values unfolded
  rfl

end Cert.KernelIdeal.Chain

end
-- ==== Proof.RefValue.lean ====
/-
  The reference program's result, at the extended reals, is the message-passing network of its ten arguments.
  Between the dense layers (each atom's sum of bond messages, each bond's combined message, the mean over each
  molecule) the reference applies the very same host operations as the network, so those stretches agree as they stand.
  A dense product is the entry-wise sum "row r against column c", the maximum with the repeated zero constant is the
  rectifier, so a message update is relu (inp + mc · W_h). The atom layer is the one real law: the product of the
  row-wise concatenation [f_atoms | a_message] with the whole output weights is a sum over 433 columns split at 133,
  f_atoms against the weights' first 133 rows plus a_message against the 300 rows below, plus the bias row's entry.
-/
import proofs.«139420_j15530601742850_1_alg».proof.Proof.Gen.ReferenceIdeal.Run
import proofs.«139420_j15530601742850_1_alg».proof.Proof.Gen.ReferenceIdeal.Read
import proofs.«139420_j15530601742850_1_alg».proof.Proof.Stages
import Idealize.ShloMosaic.Lib.Pipeline.Value
import Mathlib.Algebra.BigOperators.Fin

set_option maxRecDepth 16384

noncomputable section

open Idealize.ShloMosaic Idealize.ShloMosaic.TcCoe Idealize.SL.Sem
open Idealize.ShloMosaic.ValueIdx

namespace Cert.ReferenceIdeal.RefValue

open Cert.KernelIdeal.Stage
open Cert.ReferenceIdeal.Gen
open Cert.Lib.Dense Cert.Lib.Rectify Cert.Mpn
open scoped BigOperators

/-! ## The atom layer's law and the dense layers entry by entry (any sizes) -/

/-- The product of a row-wise concatenation [fa | am] with a matrix is the sum of the product of fa with the matrix's
    first Ka rows and of am with the Kb rows below them: entry (r, c) is a sum over Ka + Kb columns, split at Ka; a
    column below Ka reads fa and the matrix's top rows, a column Ka + k reads am at k and the bottom rows at k. -/
theorem mm_rowcat {M Ka Kb N : Nat} (fa : FVec Ideal ⟨2, ![M, Ka]⟩ .f32) (am : FVec Ideal ⟨2, ![M, Kb]⟩ .f32)
    (w : FVec Ideal ⟨2, ![Ka + Kb, N]⟩ .f32)
    (hc : Shape.Concatenates [(⟨2, ![M, Ka]⟩ : Shape), ⟨2, ![M, Kb]⟩] ⟨2, ![M, Ka + Kb]⟩ 1)
    (sT : (⟨2, ![Ka + Kb, N]⟩ : Shape).Slices ![0, 0] ⟨2, ![Ka, N]⟩)
    (sB : (⟨2, ![Ka + Kb, N]⟩ : Shape).Slices ![Ka, 0] ⟨2, ![Kb, N]⟩)
    (j : (⟨2, ![M, N]⟩ : Shape).Idx) :
    mm (concatenate ⟨2, ![M, Ka + Kb]⟩ 1 [⟨⟨2, ![M, Ka]⟩, fa⟩, ⟨⟨2, ![M, Kb]⟩, am⟩] hc) w j
      = mm fa (extractStridedSlice ⟨2, ![Ka, N]⟩ ![0, 0] w sT) j + mm am (extractStridedSlice ⟨2, ![Kb, N]⟩ ![Ka, 0] w sB) j := by
  unfold mm
  rw [Fin.sum_univ_add]
  refine congrArg₂ (· + ·) (Finset.sum_congr rfl fun k _ => ?_) (Finset.sum_congr rfl fun k _ => ?_)
  · refine congrArg₂ (· * ·) ?_ ?_
    · refine concatenate_pair_apply_left 1 fa am hc (ix2 (j 0) (Fin.castAdd Kb k)) rfl (ix2 (j 0) k) fun b => ?_
      match b with
      | ⟨0, _⟩ => rfl
      | ⟨1, _⟩ => rfl
    · refine (extractStridedSlice_apply ![0, 0] w sT (ix2 k (j 1)) (ix2 (Fin.castAdd Kb k) (j 1)) fun a => ?_).symm
      match a with
      | ⟨0, _⟩ => simp
      | ⟨1, _⟩ => simp
  · refine congrArg₂ (· * ·) ?_ ?_
    · refine concatenate_pair_apply_right 1 fa am hc (ix2 (j 0) (Fin.natAdd Ka k)) rfl rfl (ix2 (j 0) k) (fun b hb => ?_) ?_
      · match b with
        | ⟨0, _⟩ => rfl
        | ⟨1, _⟩ => exact absurd rfl hb
      · show k.val + Ka = Ka + k.val
        omega
    · refine (extractStridedSlice_apply ![Ka, 0] w sB (ix2 k (j 1)) (ix2 (Fin.natAdd Ka k) (j 1)) fun a => ?_).symm
      match a with
      | ⟨0, _⟩ => simp
      | ⟨1, _⟩ => simp

/-- A message update as host operations write it (the product, the sum with the bond input, the maximum with the
    repeated zero constant) is relu (inp + mc · wh) entry by entry. -/
theorem upd_host {M K N : Nat} (mc : FVec Ideal ⟨2, ![M, K]⟩ .f32) (inp : FVec Ideal ⟨2, ![M, N]⟩ .f32)
    (wh : FVec Ideal ⟨2, ![K, N]⟩ .f32)
    (e : (⟨0, ![]⟩ : Shape).BroadcastsInDim ⟨2, ![M, N]⟩ (![] : Fin 0 → Fin 2)) :
    maximumf (addf inp (Host.dotGeneral (DotDims.plain M K N) none mc wh))
        (broadcastInDim ⟨2, ![M, N]⟩ ![] e (constant ⟨0, ![]⟩ .f32 0x00000000#32))
      = upd mc inp wh := by
  refine (relu_host _ e).trans ?_
  unfold upd
  refine congrArg relu (funext fun j => ?_)
  exact congrArg (inp j + ·) (plain_dot_apply M K N none .single mc wh j)

/-- The atom layer as host operations write it (the concatenation's product with the whole weight matrix, plus the
    bias vector made a row and repeated down the rows, rectified) is relu (fa · top rows + am · bottom rows + bias row). -/
theorem outp_host {M Ka Kb N : Nat} (fa : FVec Ideal ⟨2, ![M, Ka]⟩ .f32) (am : FVec Ideal ⟨2, ![M, Kb]⟩ .f32)
    (w : FVec Ideal ⟨2, ![Ka + Kb, N]⟩ .f32) (b : FVec Ideal ⟨1, ![N]⟩ .f32)
    (hc : Shape.Concatenates [(⟨2, ![M, Ka]⟩ : Shape), ⟨2, ![M, Kb]⟩] ⟨2, ![M, Ka + Kb]⟩ 1)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e : (⟨0, ![]⟩ : Shape).BroadcastsInDim ⟨2, ![M, N]⟩ (![] : Fin 0 → Fin 2))
    (sT : (⟨2, ![Ka + Kb, N]⟩ : Shape).Slices ![0, 0] ⟨2, ![Ka, N]⟩)
    (sB : (⟨2, ![Ka + Kb, N]⟩ : Shape).Slices ![Ka, 0] ⟨2, ![Kb, N]⟩)
    (sc : (⟨1, ![N]⟩ : Shape).ShapeCasts ⟨2, ![1, N]⟩) :
    maximumf
        (addf (Host.dotGeneral (DotDims.plain M (Ka + Kb) N) none
            (concatenate ⟨2, ![M, Ka + Kb]⟩ 1 [⟨⟨2, ![M, Ka]⟩, fa⟩, ⟨⟨2, ![M, Kb]⟩, am⟩] hc) w)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32))
      = outp fa am (extractStridedSlice ⟨2, ![Ka, N]⟩ ![0, 0] w sT) (extractStridedSlice ⟨2, ![Kb, N]⟩ ![Ka, 0] w sB)
          (shapeCast ⟨2, ![1, N]⟩ b sc) := by
  refine (relu_host _ e).trans ?_
  unfold outp
  refine congrArg relu ?_
  refine (host_affine_row _ w b e1 e2).trans (funext fun j => ?_)
  rw [shapeCast_row b sc]
  exact congrArg (· + biasRow b (ix2 0 (j 1))) (mm_rowcat fa am w hc sT sB j)

/-! ## The reference's dense layers as it spells them (any float instance) -/

section Vocabulary
variable {F : FTy → Type} [FloatOps F]

/-- The bond input: the bond features times the input weights. -/
def rInp (a1 : (⟨S200000x147, .f32⟩ : BufTy).Contents (Elt F)) (a6 : (⟨S147x300, .f32⟩ : BufTy).Contents (Elt F)) :
    (⟨S200000x300, .f32⟩ : BufTy).Contents (Elt F) :=
  Host.dotGeneral dot_S200000x147_S147x300_S200000x300_1_0_0_1_n_n none a1 a6

/-- The rectifier over the bond array: the maximum with the zero constant repeated over it. -/
def rRelu (x : (⟨S200000x300, .f32⟩ : BufTy).Contents (Elt F)) : (⟨S200000x300, .f32⟩ : BufTy).Contents (Elt F) :=
  maximumf x (broadcastInDim S200000x300 ![] bcast_S_S200000x300 (constant S_ .f32 0x00000000#32))

/-- One message update: the combined message times the hidden weights, added to the bond input, rectified. -/
def rUpd (mc inp : (⟨S200000x300, .f32⟩ : BufTy).Contents (Elt F)) (a7 : (⟨S300x300, .f32⟩ : BufTy).Contents (Elt F)) :
    (⟨S200000x300, .f32⟩ : BufTy).Contents (Elt F) :=
  maximumf (addf inp (Host.dotGeneral dot_S200000x300_S300x300_S200000x300_1_0_0_1_n_n none mc a7))
    (broadcastInDim S200000x300 ![] bcast_S_S200000x300 (constant S_ .f32 0x00000000#32))

/-- The atom layer: [f_atoms | a_message] times the output weights, plus the bias repeated down the rows, rectified. -/
def rOut (a0 : (⟨S100000x133, .f32⟩ : BufTy).Contents (Elt F)) (am : (⟨S100000x300, .f32⟩ : BufTy).Contents (Elt F))
    (a8 : (⟨S433x300, .f32⟩ : BufTy).Contents (Elt F)) (a9 : (⟨S300, .f32⟩ : BufTy).Contents (Elt F)) :
    (⟨S100000x300, .f32⟩ : BufTy).Contents (Elt F) :=
  maximumf
    (addf
      (Host.dotGeneral dot_S100000x433_S433x300_S100000x300_1_0_0_1_n_n none
        (concatenate S100000x433 1 [⟨S100000x133, a0⟩, ⟨S100000x300, am⟩] concatenates_S100000x133_S100000x300_S100000x433_d1) a8)
      (broadcastInDim S100000x300 ![0, 1] bcast_S1x300_S100000x300_0_1 (broadcastInDim S1x300 ![1] bcast_S300_S1x300_1 a9)))
    (broadcastInDim S100000x300 ![] bcast_S_S100000x300 (constant S_ .f32 0x00000000#32))

/-- The reference's network: its dense layers as above around the three stretches of host operations it shares
    with the kernel program (the neighbour sum, the combined message, the molecule mean). -/
def refNet (a0 : (⟨S100000x133, .f32⟩ : BufTy).Contents (Elt F)) (a1 : (⟨S200000x147, .f32⟩ : BufTy).Contents (Elt F))
    (a2 : (⟨S100000x6, .i32⟩ : BufTy).Contents (Elt F)) (a3 : (⟨S200000, .i32⟩ : BufTy).Contents (Elt F))
    (a4 : (⟨S200000, .i32⟩ : BufTy).Contents (Elt F)) (a5 : (⟨S100000, .i32⟩ : BufTy).Contents (Elt F))
    (a6 : (⟨S147x300, .f32⟩ : BufTy).Contents (Elt F)) (a7 : (⟨S300x300, .f32⟩ : BufTy).Contents (Elt F))
    (a8 : (⟨S433x300, .f32⟩ : BufTy).Contents (Elt F)) (a9 : (⟨S300, .f32⟩ : BufTy).Contents (Elt F)) :
    (⟨S4000x300, .f32⟩ : BufTy).Contents (Elt F) :=
  pool
    (rOut a0
      (nbrSum
        (rUpd (combine (rUpd (combine (rRelu (rInp a1 a6)) a2 a3 a4) (rInp a1 a6) a7) a2 a3 a4) (rInp a1 a6) a7)
        a2)
      a8 a9)
    a5

/-- The reference's result term is that network of the ten arguments: the stretches between the dense layers are
    the same host operations, spelt with this program's own shape names. -/
theorem res_eq_refNet (m : (ℓ : Loc nD τ sig) → Buf (Elt F) ℓ) (c : Dev nD) :
    Cert.ReferenceIdeal.Value.res_main_v79 (F := F) m c
      = refNet (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v79
  rfl

end Vocabulary

/-! ## The dense layers at the extended reals -/

theorem rInp_eq (a1 : (⟨S200000x147, .f32⟩ : BufTy).Contents (Elt Ideal)) (a6 : (⟨S147x300, .f32⟩ : BufTy).Contents (Elt Ideal)) :
    rInp (F := Ideal) a1 a6 = mm (M := 200000) (K := 147) (N := 300) a1 a6 :=
  mm_of_dot 200000 147 300 none .single a1 a6

theorem rRelu_eq (x : (⟨S200000x300, .f32⟩ : BufTy).Contents (Elt Ideal)) : rRelu (F := Ideal) x = relu x :=
  relu_host x bcast_S_S200000x300

theorem rUpd_eq (mc inp : (⟨S200000x300, .f32⟩ : BufTy).Contents (Elt Ideal)) (a7 : (⟨S300x300, .f32⟩ : BufTy).Contents (Elt Ideal)) :
    rUpd (F := Ideal) mc inp a7 = upd (M := 200000) (K := 300) (N := 300) mc inp a7 :=
  upd_host (M := 200000) (K := 300) (N := 300) mc inp a7 bcast_S_S200000x300

theorem rOut_eq (a0 : (⟨S100000x133, .f32⟩ : BufTy).Contents (Elt Ideal)) (am : (⟨S100000x300, .f32⟩ : BufTy).Contents (Elt Ideal))
    (a8 : (⟨S433x300, .f32⟩ : BufTy).Contents (Elt Ideal)) (a9 : (⟨S300, .f32⟩ : BufTy).Contents (Elt Ideal)) :
    rOut (F := Ideal) a0 am a8 a9
      = outp (M := 100000) (Ka := 133) (Kb := 300) (N := 300) a0 am (wTop (F := Ideal) a8) (wBot (F := Ideal) a8) (bRow (F := Ideal) a9) :=
  outp_host (M := 100000) (Ka := 133) (Kb := 300) (N := 300) a0 am a8 a9 concatenates_S100000x133_S100000x300_S100000x433_d1
    bcast_S300_S1x300_1 bcast_S1x300_S100000x300_0_1 bcast_S_S100000x300 _ _ _

/-- The reference's network at the extended reals is the network. -/
theorem refNet_eq (a0 : (⟨S100000x133, .f32⟩ : BufTy).Contents (Elt Ideal)) (a1 : (⟨S200000x147, .f32⟩ : BufTy).Contents (Elt Ideal))
    (a2 : (⟨S100000x6, .i32⟩ : BufTy).Contents (Elt Ideal)) (a3 : (⟨S200000, .i32⟩ : BufTy).Contents (Elt Ideal))
    (a4 : (⟨S200000, .i32⟩ : BufTy).Contents (Elt Ideal)) (a5 : (⟨S100000, .i32⟩ : BufTy).Contents (Elt Ideal))
    (a6 : (⟨S147x300, .f32⟩ : BufTy).Contents (Elt Ideal)) (a7 : (⟨S300x300, .f32⟩ : BufTy).Contents (Elt Ideal))
    (a8 : (⟨S433x300, .f32⟩ : BufTy).Contents (Elt Ideal)) (a9 : (⟨S300, .f32⟩ : BufTy).Contents (Elt Ideal)) :
    refNet (F := Ideal) a0 a1 a2 a3 a4 a5 a6 a7 a8 a9 = network a0 a1 a2 a3 a4 a5 a6 a7 a8 a9 := by
  unfold refNet network
  rw [rInp_eq, rRelu_eq, rUpd_eq, rUpd_eq, rOut_eq]

/-- The reference's result term, at the extended reals, is the network of its ten arguments. -/
theorem ref_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v79 (F := Ideal) m c = network (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) :=
  (res_eq_refNet (F := Ideal) m c).trans (refNet_eq _ _ _ _ _ _ _ _ _ _)

end Cert.ReferenceIdeal.RefValue

end
-- ==== Proof.lean ====
/-
  A directed message-passing network over a molecular graph: the bond input `f_bonds · W_i`, its rectification, two
  message updates `relu (input + combined · W_h)` — the combined message of a bond being the sum of the messages of its
  source atom's bonds less the message of its reverse bond —, the atom layer `relu ([f_atoms | a_message] · W_o + b)`
  and the mean of the atom vectors over each molecule.

  The kernel program runs the three dense layers as four tiled products over blocks of rows (the atom layer as two
  partial products against the top and the bottom rows of `W_o`), with the gathers, the sums over neighbours and the
  molecule mean as host operations in between; the reference runs everything as host operations. At the extended
  reals both compute ONE function of the ten arguments, `Cert.KernelIdeal.Stage.network`:
  * each region's output array is the dense layer of the arrays the region is entered with, entry by entry: a block of
    rows of a product depends only on those rows (Proof/Region0.lean … Region3.lean);
  * the contents of the buffers between the regions, walked back to the launch memory (Proof/Chain.lean);
  * the reference's composed term is the same network: its host stretches are the same operations, its products the
    same sums, and the product with the concatenation splits at column 133 into the two partial products
    (Proof/RefValue.lean).
  The kernel program's run with its result named is Proof/KernelRun.lean; the three frames are the generated ones (the
  reference's is its generated run with the result dropped); no operation was rewritten by the ideal pass, so
  `preserves` is `True`.
-/
import proofs.«139420_j15530601742850_1_alg».proof.Defs
import proofs.«139420_j15530601742850_1_alg».proof.Proof.Gen.Kernel
import proofs.«139420_j15530601742850_1_alg».proof.Proof.Gen.Kernel.Frame
import proofs.«139420_j15530601742850_1_alg».proof.Proof.Gen.KernelIdeal
import proofs.«139420_j15530601742850_1_alg».proof.Proof.Gen.KernelIdeal.Frame
import proofs.«139420_j15530601742850_1_alg».proof.Proof.Gen.ReferenceIdeal
import proofs.«139420_j15530601742850_1_alg».proof.Proof.Gen.ReferenceIdeal.Run
import proofs.«139420_j15530601742850_1_alg».proof.Proof.Gen.Pre_finite_inputs
import proofs.«139420_j15530601742850_1_alg».proof.Proof.KernelRun
import proofs.«139420_j15530601742850_1_alg».proof.Proof.Chain
import proofs.«139420_j15530601742850_1_alg».proof.Proof.RefValue
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference runs, and keeps its arguments: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs end with the network of the (agreeing) arguments in their result buffers. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Stage.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Chain.result_eq m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.RefValue.ref_eq m' c, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
